-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x3 : Shape := ⟨3, ![64, 1024, 3]⟩
abbrev S64 : Shape := ⟨1, ![64]⟩
abbrev S_ : Shape := ⟨0, ![]⟩

class Facts : Prop where
  bcast_S_S64x1024x3 : S_.BroadcastsInDim S64x1024x3 (![] : Fin 0 → Fin S64x1024x3.rank)
  reducesTo_S64x1024x3_S_d0_1_2 : S64x1024x3.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S64x1024x3 .f32) (main_arg1 : FVec F S64x1024x3 .f32) (main_arg2 : FVec F S64x1024x3 .f32) (main_arg3 : FVec F S64 .f32) (main_arg4 : FVec F S64 .f32) (main_arg5 : FVec F S64 .f32) : IVec S_ 1 :=
  let main_v0 : FVec F S64x1024x3 .f32 := Host.absf main_arg0
  let main_cst : FVec F S_ .f32 := constant S_ .f32 0x7F800000#32
  let main_v1 : FVec F S64x1024x3 .f32 := broadcastInDim S64x1024x3 ![] bcast_S_S64x1024x3 main_cst
  let main_v2 : IVec S64x1024x3 1 := cmpf .olt main_v0 main_v1
  let main_c : IVec S_ 1 := constantI S_ 1 1#1
  let main_v3 : IVec S_ 1 := (fun x v => Host.reduce IntOp.andi x v reducesTo_S64x1024x3_S_d0_1_2 h_S_) main_v2 main_c
  let main_v4 : FVec F S64x1024x3 .f32 := Host.absf main_arg1
  let main_cst_0 : FVec F S_ .f32 := constant S_ .f32 0x7F800000#32
  let main_v5 : FVec F S64x1024x3 .f32 := broadcastInDim S64x1024x3 ![] bcast_S_S64x1024x3 main_cst_0
  let main_v6 : IVec S64x1024x3 1 := cmpf .olt main_v4 main_v5
  let main_c_1 : IVec S_ 1 := constantI S_ 1 1#1
  let main_v7 : IVec S_ 1 := (fun x v => Host.reduce IntOp.andi x v reducesTo_S64x1024x3_S_d0_1_2 h_S_) main_v6 main_c_1
  let main_v8 : IVec S_ 1 := andi main_v3 main_v7
  let main_v9 : FVec F S64x1024x3 .f32 := Host.absf main_arg2
  let main_cst_2 : FVec F S_ .f32 := constant S_ .f32 0x7F800000#32
  let main_v10 : FVec F S64x1024x3 .f32 := broadcastInDim S64x1024x3 ![] bcast_S_S64x1024x3 main_cst_2
  let main_v11 : IVec S64x1024x3 1 := cmpf .olt main_v9 main_v10
  let main_c_3 : IVec S_ 1 := constantI S_ 1 1#1
  let main_v12 : IVec S_ 1 := (fun x v => Host.reduce IntOp.andi x v reducesTo_S64x1024x3_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S64x1024x3 : Shape := ⟨3, ![64, 1024, 3]⟩
abbrev S64 : Shape := ⟨1, ![64]⟩
abbrev S64x128 : Shape := ⟨2, ![64, 128]⟩
abbrev S8x1024x3 : Shape := ⟨3, ![8, 1024, 3]⟩
abbrev S8x128 : Shape := ⟨2, ![8, 128]⟩
abbrev S8x1024 : Shape := ⟨2, ![8, 1024]⟩
abbrev S8 : Shape := ⟨1, ![8]⟩
abbrev S8x128x3 : Shape := ⟨3, ![8, 128, 3]⟩
abbrev S8x128x1024 : Shape := ⟨3, ![8, 128, 1024]⟩
abbrev S8x128x1 : Shape := ⟨3, ![8, 128, 1]⟩
abbrev S8x1x1024 : Shape := ⟨3, ![8, 1, 1024]⟩
abbrev S8x1 : Shape := ⟨2, ![8, 1]⟩
abbrev S8x4 : Shape := ⟨2, ![8, 4]⟩
abbrev S8x124 : Shape := ⟨2, ![8, 124]⟩
abbrev S64x1 : Shape := ⟨2, ![64, 1]⟩
abbrev S_ : Shape := ⟨0, ![]⟩
abbrev S1 : Shape := ⟨1, ![1]⟩
abbrev S3 : Shape := ⟨1, ![3]⟩

abbrev nBuf : Space → Nat
  | .hbm => 46
  | .vmem => 8
  | .smem => 0
  | _ => 0

abbrev bufTy : (tb : Table) → Fin (tcTables nBuf tb) → BufTy
  | .hbm, ⟨0, _⟩ => ⟨S64x1024x3, .f32⟩
  | .hbm, ⟨1, _⟩ => ⟨S64x1024x3, .f32⟩
  | .hbm, ⟨2, _⟩ => ⟨S64x1024x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S3, .f32⟩
  | .local _ .vmem, ⟨0, _⟩ => ⟨S8x1024x3, .f32⟩
  | .local _ .vmem, ⟨1, _⟩ => ⟨S8x1024x3, .f32⟩
  | .local _ .vmem, ⟨2, _⟩ => ⟨S8x1024x3, .f32⟩
  | .local _ .vmem, ⟨3, _⟩ => ⟨S8x1024x3, .f32⟩
  | .local _ .vmem, ⟨4, _⟩ => ⟨S8x1024x3, .f32⟩
  | .local _ .vmem, ⟨5, _⟩ => ⟨S8x1024x3, .f32⟩
  | .local _ .vmem, ⟨6, _⟩ => ⟨S8x128, .f32⟩
  | .local _ .vmem, ⟨7, _⟩ => ⟨S8x128, .f32⟩
  | _, _ => ⟨S64x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x1024x3_S8x1024x3_0_0_0 : ∀ a, (![0, 0, 0] : Fin 3 → Nat) a + S8x1024x3.size a ≤ S8x1024x3.size a
  h_S8x1024x3 : 0 < S8x1024x3.numel
  bitsLt_bf16_f32 : FTy.bits .bf16 < FTy.bits .f32
  reduces_S8x1024x3_S8x1024 : S8x1024x3.Reduces [2] S8x1024
  reduces_S8x1024_S8 : S8x1024.Reduces [1] S8
  inb_S8x1024x3_S8x128x3_0_0_0 : ∀ a, (![0, 0, 0] : Fin 3 → Nat) a + S8x128x3.size a ≤ S8x1024x3.size a
  h_S8x128x3 : 0 < S8x128x3.numel
  reduces_S8x128x3_S8x128 : S8x128x3.Reduces [2] S8x128
  shapeCasts_S8x128_S8x128x1 : S8x128.ShapeCasts S8x128x1
  shapeCasts_S8x1024_S8x1x1024 : S8x1024.ShapeCasts S8x1x1024
  broadcasts_S8x128x1_S8x128x1024 : S8x128x1.Broadcasts S8x128x1024
  broadcasts_S8x1x1024_S8x128x1024 : S8x1x1024.Broadcasts S8x128x1024
  reduces_S8x128x1024_S8x128 : S8x128x1024.Reduces [2] S8x128
  reduces_S8x128x1024_S8x1024 : S8x128x1024.Reduces [1] S8x1024
  reduces_S8x128_S8 : S8x128.Reduces [1] S8
  inb_S8x1024x3_S8x128x3_0_128_0 : ∀ a, (![0, 128, 0] : Fin 3 → Nat) a + S8x128x3.size a ≤ S8x1024x3.size a
  inb_S8x1024x3_S8x128x3_0_256_0 : ∀ a, (![0, 256, 0] : Fin 3 → Nat) a + S8x128x3.size a ≤ S8x1024x3.size a
  inb_S8x1024x3_S8x128x3_0_384_0 : ∀ a, (![0, 384, 0] : Fin 3 → Nat) a + S8x128x3.size a ≤ S8x1024x3.size a
  inb_S8x1024x3_S8x128x3_0_512_0 : ∀ a, (![0, 512, 0] : Fin 3 → Nat) a + S8x128x3.size a ≤ S8x1024x3.size a
  inb_S8x1024x3_S8x128x3_0_640_0 : ∀ a, (![0, 640, 0] : Fin 3 → Nat) a + S8x128x3.size a ≤ S8x1024x3.size a
  inb_S8x1024x3_S8x128x3_0_768_0 : ∀ a, (![0, 768, 0] : Fin 3 → Nat) a + S8x128x3.size a ≤ S8x1024x3.size a
  inb_S8x1024x3_S8x128x3_0_896_0 : ∀ a, (![0, 896, 0] : Fin 3 → Nat) a + S8x128x3.size a ≤ S8x1024x3.size a
  shapeCasts_S8_S8x1 : S8.ShapeCasts S8x1
  concatenates_S8x1_S8x1_S8x1_S8x1_S8x4_d1 : Shape.Concatenates [S8x1, S8x1, S8x1, S8x1] S8x4 1
  concatenates_S8x4_S8x124_S8x128_d1 : Shape.Concatenates [S8x4, S8x124] S8x128 1
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  slices_S64x128_S64x1_0_1 : S64x128.Slices ![0, 1] S64x1
  slices_S64x128_S64x1_0_2 : S64x128.Slices ![0, 2] S64x1
  slices_S64x128_S64x1_0_3 : S64x128.Slices ![0, 3] S64x1
  bcast_S_S64 : S_.BroadcastsInDim S64 (![] : Fin 0 → Fin S64.rank)
  reducesTo_S64_S_d0 : S64.ReducesTo [0] S_
  h_S_ : 0 < S_.numel
  bcast_S_S1 : S_.BroadcastsInDim S1 (![] : Fin 0 → Fin S1.rank)
  concatenates_S1_S1_S1_S3_d0 : Shape.Concatenates [S1, S1, S1] S3 0
  dot_S8x128x3_S8x1024x3_S8x128x1024_2_2_1_1_0_0_wf : DotDims.WF S8x128x3 S8x1024x3 S8x128x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x3.size a ≤ S64x1024x3.size a
  hwx0_0 : ∀ i : grid0.Coords, EltTy.bits .f32 = 32 ∨ (Rect.block (s := S64x1024x3) S8x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x3.size a ≤ S64x1024x3.size a
  hwx0_1 : ∀ i : grid0.Coords, EltTy.bits .f32 = 32 ∨ (Rect.block (s := S64x1024x3) S8x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x3.size a ≤ S64x1024x3.size a
  hwx0_2 : ∀ i : grid0.Coords, EltTy.bits .f32 = 32 ∨ (Rect.block (s := S64x1024x3) S8x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def dot_S8x128x3_S8x1024x3_S8x128x1024_2_2_1_1_0_0 : DotDims S8x128x3 S8x1024x3 S8x128x1024 where
  lhsContracting := [2]
  rhsContracting := [2]
  lhsNonContracting := [1]
  rhsNonContracting := [1]
  lhsBatch := [0]
  rhsBatch := [0]
  wf := dot_S8x128x3_S8x1024x3_S8x128x1024_2_2_1_1_0_0_wf

abbrev win0_0 : Pipeline.Window sig grid0 :=
  Pipeline.Window.ofSpec (Memref.whole main_arg0) S8x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x3 : Shape := ⟨3, ![64, 1024, 3]⟩
abbrev S64 : Shape := ⟨1, ![64]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S1 : Shape := ⟨1, ![1]⟩
abbrev S3 : Shape := ⟨1, ![3]⟩

abbrev nBuf : Space → Nat
  | .hbm => 123
  | .vmem => 0
  | .smem => 0
  | _ => 0

abbrev bufTy : (tb : Table) → Fin (tcTables nBuf tb) → BufTy
  | .hbm, ⟨0, _⟩ => ⟨S64x1024x3, .f32⟩
  | .hbm, ⟨1, _⟩ => ⟨S64x1024x3, .f32⟩
  | .hbm, ⟨2, _⟩ => ⟨S64x1024x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x1024x3, .f32⟩
  | .hbm, ⟨7, _⟩ => ⟨S_, .f32⟩
  | .hbm, ⟨8, _⟩ => ⟨S64x1024, .f32⟩
  | .hbm, ⟨9, _⟩ => ⟨S64x1024x1, .f32⟩
  | .hbm, ⟨10, _⟩ => ⟨S64x1024x3, .f32⟩
  | .hbm, ⟨11, _⟩ => ⟨S_, .f32⟩
  | .hbm, ⟨12, _⟩ => ⟨S64x1024, .f32⟩
  | .hbm, ⟨13, _⟩ => ⟨S64x1x1024, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S_, .f32⟩
  | .hbm, ⟨19, _⟩ => ⟨S64x1024x1024, .f32⟩
  | .hbm, ⟨20, _⟩ => ⟨S64x1024x1024, .f32⟩
  | .hbm, ⟨21, _⟩ => ⟨S64x1024x1024, .f32⟩
  | .hbm, ⟨22, _⟩ => ⟨S_, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64x1024x3, .f32⟩
  | .hbm, ⟨40, _⟩ => ⟨S64x1024x3, .f32⟩
  | .hbm, ⟨41, _⟩ => ⟨S_, .f32⟩
  | .hbm, ⟨42, _⟩ => ⟨S64x1024, .f32⟩
  | .hbm, ⟨43, _⟩ => ⟨S64x1024, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64x1024x3, .f32⟩
  | .hbm, ⟨57, _⟩ => ⟨S_, .f32⟩
  | .hbm, ⟨58, _⟩ => ⟨S64x1024, .f32⟩
  | .hbm, ⟨59, _⟩ => ⟨S64x1024x1, .f32⟩
  | .hbm, ⟨60, _⟩ => ⟨S64x1024x3, .f32⟩
  | .hbm, ⟨61, _⟩ => ⟨S_, .f32⟩
  | .hbm, ⟨62, _⟩ => ⟨S64x1024, .f32⟩
  | .hbm, ⟨63, _⟩ => ⟨S64x1x1024, .f32⟩
  | .hbm, ⟨64, _⟩ => ⟨S64x1024x1024, .f32⟩
  | .hbm, ⟨65, _⟩ => ⟨S64x1024x1024, .f32⟩
  | .hbm, ⟨66, _⟩ => ⟨S64x1024x1024, .f32⟩
  | .hbm, ⟨67, _⟩ => ⟨S64x1024x1024, .f32⟩
  | .hbm, ⟨68, _⟩ => ⟨S_, .f32⟩
  | .hbm, ⟨69, _⟩ => ⟨S64x1024x1024, .f32⟩
  | .hbm, ⟨70, _⟩ => ⟨S64x1024x1024, .f32⟩
  | .hbm, ⟨71, _⟩ => ⟨S64x1024x1024, .f32⟩
  | .hbm, ⟨72, _⟩ => ⟨S_, .f32⟩
  | .hbm, ⟨73, _⟩ => ⟨S64x1024x1024, .f32⟩
  | .hbm, ⟨74, _⟩ => ⟨S64x1024x1024, .f32⟩
  | .hbm, ⟨75, _⟩ => ⟨S64x1024x1024, .f32⟩
  | .hbm, ⟨76, _⟩ => ⟨S_, .f32⟩
  | .hbm, ⟨77, _⟩ => ⟨S64x1024, .f32⟩
  | .hbm, ⟨78, _⟩ => ⟨S_, .f32⟩
  | .hbm, ⟨79, _⟩ => ⟨S64x1024, .f32⟩
  | .hbm, ⟨80, _⟩ => ⟨S64x1024, .f32⟩
  | .hbm, ⟨81, _⟩ => ⟨S_, .f32⟩
  | .hbm, ⟨82, _⟩ => ⟨S64x1024, .f32⟩
  | .hbm, ⟨83, _⟩ => ⟨S64x1024, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1024x3, .f32⟩
  | .hbm, ⟨90, _⟩ => ⟨S64x1024x3, .f32⟩
  | .hbm, ⟨91, _⟩ => ⟨S_, .f32⟩
  | .hbm, ⟨92, _⟩ => ⟨S64x1024, .f32⟩
  | .hbm, ⟨93, _⟩ => ⟨S64x1024, .f32⟩
  | .hbm, ⟨94, _⟩ => ⟨S_, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S1, .f32⟩
  | .hbm, ⟨120, _⟩ => ⟨S1, .f32⟩
  | .hbm, ⟨121, _⟩ => ⟨S1, .f32⟩
  | .hbm, ⟨122, _⟩ => ⟨S3, .f32⟩
  | _, _ => ⟨S64x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call1_v0 : Ref sig .tc := ⟨.hbm, 90, rfl⟩
abbrev main_call1_cst : Ref sig .tc := ⟨.hbm, 91, rfl⟩
abbrev main_call1_v1 : Ref sig .tc := ⟨.hbm, 92, rfl⟩
abbrev main_v60 : Ref sig .tc := ⟨.hbm, 93, rfl⟩
abbrev main_cst_20 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_22 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_23 : Ref sig .tc := ⟨.hbm, 107, rfl⟩
abbrev main_v71 : Ref sig .tc := ⟨.hbm, 108, rfl⟩
abbrev main_cst_24 : Ref sig .tc := ⟨.hbm, 109, rfl⟩
abbrev main_v72 : Ref sig .tc := ⟨.hbm, 110, rfl⟩
abbrev main_cst_25 : Ref sig .tc := ⟨.hbm, 111, rfl⟩
abbrev main_v73 : Ref sig .tc := ⟨.hbm, 112, rfl⟩
abbrev main_cst_26 : Ref sig .tc := ⟨.hbm, 113, rfl⟩
abbrev main_v74 : Ref sig .tc := ⟨.hbm, 114, rfl⟩
abbrev main_cst_27 : Ref sig .tc := ⟨.hbm, 115, rfl⟩
abbrev main_v75 : Ref sig .tc := ⟨.hbm, 116, rfl⟩
abbrev main_cst_28 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  reducesTo_S64x1024x3_S64x1024_d2 : S64x1024x3.ReducesTo [2] S64x1024
  h_S_ : 0 < S_.numel
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64x1024_d2 : S64x1024x1024.ReducesTo [2] S64x1024
  reducesTo_S64x1024x1024_S64x1024_d1 : S64x1024x1024.ReducesTo [1] S64x1024
  bcast_S_S64x1024 : S_.BroadcastsInDim S64x1024 (![] : Fin 0 → Fin S64x1024.rank)
  reducesTo_S64x1024_S64_d1 : S64x1024.ReducesTo [1] S64
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  concatenates_S1_S1_S1_S3_d0 : Shape.Concatenates [S1, S1, S1] S3 0
  dot_S64x1024x3_S64x1024x3_S64x1024x1024_2_2_1_1_0_0_wf : DotDims.WF S64x1024x3 S64x1024x3 S64x1024x1024 [2] [2] [1] [1] [0] [0]

variable [Facts₀]

def dot_S64x1024x3_S64x1024x3_S64x1024x1024_2_2_1_1_0_0 : DotDims S64x1024x3 S64x1024x3 S64x1024x1024 where
  lhsContracting := [2]
  rhsContracting := [2]
  lhsNonContracting := [1]
  rhsNonContracting := [1]
  lhsBatch := [0]
  rhsBatch := [0]
  wf := dot_S64x1024x3_S64x1024x3_S64x1024x1024_2_2_1_1_0_0_wf

class Facts : Prop extends Facts₀ where

variable [Facts]
-- ==== Proof.KBody.lean ====
/-
  What one grid point's body leaves in its output block, as ONE function of the three input blocks it is called on:
  the block `x1` of the first predicted cloud, the block `x2` of the second, the block `x3` of the targets (eight batch
  rows of 1024 points each). The body reads the target block whole and each predicted block whole once (for the matched-pair
  distances) and again in eight slabs of 128 points (for the nearest-neighbour terms); every value it computes on the way
  is one of the named payloads, and the block it stores is the last payload of the chain. This module threads the payloads
  in the order the body does, over the slabs read off the blocks, at any float instance.
-/
import proofs.«117573_j17695265260051_1_alg».proof.Proof.Gen.Kernel.Skeleton
import Idealize.ShloMosaic.Lib.Pipeline.FrameBody

noncomputable section

namespace Cert.Kernel.Body

open Idealize.ShloMosaic Idealize.ShloMosaic.TcCoe Idealize.SL.Sem
open Cert.Kernel Cert.Kernel.Gen

variable {F : FTy → Type} [FloatOps F]

/-! ## The rectangles the body reads and writes through -/

/-- A whole input block. -/
abbrev rAll : Rect S8x1024x3 := Rect.unit (s := S8x1024x3) ![0, 0, 0] S8x1024x3.size inb_S8x1024x3_S8x1024x3_0_0_0
/-- Slab `i` of a predicted block: its points `128·i … 128·i + 127`, all eight rows, all three coordinates. -/
abbrev rS0 : Rect S8x1024x3 := Rect.unit (s := S8x1024x3) ![0, 0, 0] S8x128x3.size inb_S8x1024x3_S8x128x3_0_0_0
abbrev rS1 : Rect S8x1024x3 := Rect.unit (s := S8x1024x3) ![0, 128, 0] S8x128x3.size inb_S8x1024x3_S8x128x3_0_128_0
abbrev rS2 : Rect S8x1024x3 := Rect.unit (s := S8x1024x3) ![0, 256, 0] S8x128x3.size inb_S8x1024x3_S8x128x3_0_256_0
abbrev rS3 : Rect S8x1024x3 := Rect.unit (s := S8x1024x3) ![0, 384, 0] S8x128x3.size inb_S8x1024x3_S8x128x3_0_384_0
abbrev rS4 : Rect S8x1024x3 := Rect.unit (s := S8x1024x3) ![0, 512, 0] S8x128x3.size inb_S8x1024x3_S8x128x3_0_512_0
abbrev rS5 : Rect S8x1024x3 := Rect.unit (s := S8x1024x3) ![0, 640, 0] S8x128x3.size inb_S8x1024x3_S8x128x3_0_640_0
abbrev rS6 : Rect S8x1024x3 := Rect.unit (s := S8x1024x3) ![0, 768, 0] S8x128x3.size inb_S8x1024x3_S8x128x3_0_768_0
abbrev rS7 : Rect S8x1024x3 := Rect.unit (s := S8x1024x3) ![0, 896, 0] S8x128x3.size inb_S8x1024x3_S8x128x3_0_896_0
/-- The whole output block. -/
abbrev rOut : Rect S8x128 := Rect.unit (s := S8x128) ![0, 0] S8x128.size inb_S8x128_S8x128_0_0

/-! ## The stored block -/

/-- The block the body stores, from the three input blocks: the payloads threaded as the body threads them. The first
    predicted cloud's eight slabs feed the first nearest-neighbour term (finished in `v200`), the second cloud's the second
    (finished inside the last payload); `v12` and `v19` are the two matched-pair averages. -/
def outVal (x1 x2 x3 : Vec F S8x1024x3 .f32) : FVec F S8x128 .f32 :=
  -- the target block, and what the body keeps of it: its copy in the narrow format and its squared norms
  let v0 : Vec F S8x1024x3 .f32 := View.ld x3 rAll
  let v4 : Vec F S8x1024x3 .f32 := View.ld x1 rAll
  let v5 : Vec F S8x1024x3 .f32 := View.ld x2 rAll
  let v1 := k0_pay2 v0
  let v3 := k0_pay3 v0
  -- the two matched-pair averages
  let v12 := k0_pay4 v0 v4
  let v19 := k0_pay5 v0 v5
  -- the first cloud, slab by slab: the running sum and the running minimum, from zero and +∞
  let v20 : FVec F S8x1024 .f32 := k0_pay6
  let v21 : FVec F S8 .f32 := k0_pay7
  let v34 := k0_pay8 v0 (View.ld x1 rS0)
  let v43 : Vec F S8x128x3 .f32 := View.ld x1 rS1
  let v64 : Vec F S8x128x3 .f32 := View.ld x1 rS2
  let v62 := k0_pay10 v1 v3 v21 v34 v43
  let v63 := k0_pay11 v1 v3 v20 v34 v43
  let v68 := k0_pay12 v1 v64
  let v73 := k0_pay13 v3 v64
  let v74 : FVec F S8x128x1024 .f32 := k0_pay14
  let v85 : Vec F S8x128x3 .f32 := View.ld x1 rS3
  let v106 : Vec F S8x128x3 .f32 := View.ld x1 rS4
  let v104 := k0_pay17 v1 v3 v62 v68 v73 v74 v85
  let v105 := k0_pay18 v1 v3 v63 v68 v73 v74 v85
  let v110 := k0_pay19 v1 v106
  let v115 := k0_pay20 v3 v106
  let v127 : Vec F S8x128x3 .f32 := View.ld x1 rS5
  let v148 : Vec F S8x128x3 .f32 := View.ld x1 rS6
  let v146 := k0_pay23 v1 v3 v104 v110 v115 v127
  let v147 := k0_pay24 v1 v3 v105 v110 v115 v127
  let v152 := k0_pay25 v1 v148
  let v154 := k0_pay26 v3
  let v155 := k0_pay27 v148
  let v169 : Vec F S8x128x3 .f32 := View.ld x1 rS7
  let v191 := k0_pay30 v1 v3 v146 v152 v154 v155 v169
  let v195 := k0_pay31 v1 v3 v147 v152 v154 v155 v169
  let v196 : FVec F S8 .f32 := k0_pay32
  -- the first nearest-neighbour term, finished
  let v200 := k0_pay33 v191 v195 v196
  -- the second cloud, slab by slab
  let v203 : Vec F S8x128x3 .f32 := View.ld x2 rS0
  let v224 : Vec F S8x128x3 .f32 := View.ld x2 rS1
  let v222 := k0_pay35 v1 v3 v203
  let v223 := k0_pay36 v1 v3 v203
  let v236 := k0_pay37 v1 v3 v224
  let v245 : Vec F S8x128x3 .f32 := View.ld x2 rS2
  let v266 : Vec F S8x128x3 .f32 := View.ld x2 rS3
  let v264 := k0_pay39 v1 v3 v222 v236 v245
  let v265 := k0_pay40 v1 v3 v223 v236 v245
  let v275 := k0_pay41 v3 v266
  let v277 := k0_pay42 v1 v266
  let v287 : Vec F S8x128x3 .f32 := View.ld x2 rS4
  let v308 : Vec F S8x128x3 .f32 := View.ld x2 rS5
  let v306 := k0_pay45 v1 v3 v264 v275 v277 v287
  let v307 := k0_pay46 v1 v3 v265 v275 v277 v287
  let v312 := k0_pay47 v1 v308
  let v317 := k0_pay48 v3 v308
  let cst_151 : F .f32 := Scalar.ofBits .f32 0x40000000#32
  let v329 : Vec F S8x128x3 .f32 := View.ld x2 rS6
  let v350 : Vec F S8x128x3 .f32 := View.ld x2 rS7
  let v348 := k0_pay51 v1 v3 v306 v312 v317 cst_151 v329
  let v349 := k0_pay52 v1 v3 v307 v312 v317 cst_151 v329
  let v354 := k0_pay53 v1 v350
  let v357 := k0_pay54 v350
  let v358 := k0_pay55 v3
  -- the stored block: the four per-row results side by side, then zeros
  k0_pay1 v12 v19 v200 v348 v349 v354 v357 v358

/-- What the output window's staging buffer holds after the body: its one store, which covers the block. -/
def out0_3 (x1 x2 x3 : Vec F S8x1024x3 .f32) : Vec F S8x128 .f32 :=
  View.canon [⟨rOut, outVal x1 x2 x3⟩]

/-- The one store covers the block. -/
theorem cover0_3 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

end Cert.Kernel.Body

end
-- ==== Proof.KFrame.lean ====
/-
  The frame of `Kernel`: every weakly fair execution of @main — the one pipelined region over eight grid points, then
  the host lines that weigh and average its four per-row results — terminates without a fault and leaves the six argument
  arrays as launched; and, beyond the frame, the run with every array NAMED afterwards: the output array holds, block by
  block, what the body stores from the three input blocks of the same grid point (`Body.outVal`), and every other buffer
  what the host lines after the region compute from that.

  Point `t` of the grid fetches rows `8t … 8t+7` of each of the three point-cloud arrays into staging buffers, runs the
  body on them, and writes the [8, 128] block it stores back to rows `8t … 8t+7` of the output array. The body reads its
  three input buffers (whole, and the two predicted clouds again in eight slabs), reads the output buffer once without using
  what it read, and overwrites the output buffer whole; it keeps nothing from point to point. So the proof data is the plain
  one: an input buffer holds its block before and after the body, the output buffer holds the stored block after it.
-/
import proofs.«117573_j17695265260051_1_alg».proof.Proof.Gen.Kernel.Launch
import proofs.«117573_j17695265260051_1_alg».proof.Proof.Gen.Kernel.Skeleton
import proofs.«117573_j17695265260051_1_alg».proof.Proof.Gen.Kernel.Points
import proofs.«117573_j17695265260051_1_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line comes before it, so they are the launch
    contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- No host line after the region writes the reference `r`, when `r` is none of the lines' result references: each line
    writes only its own result. -/
theorem tail_keeps (r : Ref sig .tc)
    (hr : r ≠ main_v1 ∧ r ≠ main_v2 ∧ r ≠ main_v3 ∧ r ≠ main_v4 ∧ r ≠ main_v5 ∧ r ≠ main_v6 ∧ r ≠ main_v7 ∧ r ≠ main_v8
      ∧ r ≠ main_v9 ∧ r ≠ main_cst ∧ r ≠ main_v10 ∧ r ≠ main_v11 ∧ r ≠ main_v12 ∧ r ≠ main_v13 ∧ r ≠ main_v14 ∧ r ≠ main_v15
      ∧ r ≠ main_cst_0 ∧ r ≠ main_v16 ∧ r ≠ main_v17 ∧ r ≠ main_v18 ∧ r ≠ main_v19 ∧ r ≠ main_v20 ∧ r ≠ main_v21 ∧ r ≠ main_cst_1
      ∧ r ≠ main_v22 ∧ r ≠ main_cst_2 ∧ r ≠ main_v23 ∧ r ≠ main_cst_3 ∧ r ≠ main_v24 ∧ r ≠ main_cst_4 ∧ r ≠ main_v25 ∧ r ≠ main_cst_5
      ∧ r ≠ main_v26 ∧ r ≠ main_cst_6 ∧ r ≠ main_v27 ∧ r ≠ main_v28 ∧ r ≠ main_v29 ∧ r ≠ main_v30 ∧ r ≠ main_v31) :
    (hostOps1 : List (HloOp τ sig (Elt F))).Forall fun op => Proc.devRef .tc r ∉ op.writes := by
  obtain ⟨h1, h2, h3, h4, h5, h6, h7, h8, h9, h10, h11, h12, h13, h14, h15, h16, h17, h18, h19, h20, h21, h22, h23, h24, h25,
    h26, h27, h28, h29, h30, h31, h32, h33, h34, h35, h36, h37, h38, h39⟩ := hr
  simp only [hostOps1, List.Forall, StableHlo.nullary_writes, StableHlo.unary_writes, StableHlo.binary_writes,
    StableHlo.reshape_writes, StableHlo.nary_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12,
    StableHlo.devRef_ne_of_ne h13, StableHlo.devRef_ne_of_ne h14, StableHlo.devRef_ne_of_ne h15, StableHlo.devRef_ne_of_ne h16,
    StableHlo.devRef_ne_of_ne h17, StableHlo.devRef_ne_of_ne h18, StableHlo.devRef_ne_of_ne h19, StableHlo.devRef_ne_of_ne h20,
    StableHlo.devRef_ne_of_ne h21, StableHlo.devRef_ne_of_ne h22, StableHlo.devRef_ne_of_ne h23, StableHlo.devRef_ne_of_ne h24,
    StableHlo.devRef_ne_of_ne h25, StableHlo.devRef_ne_of_ne h26, StableHlo.devRef_ne_of_ne h27, StableHlo.devRef_ne_of_ne h28,
    StableHlo.devRef_ne_of_ne h29, StableHlo.devRef_ne_of_ne h30, StableHlo.devRef_ne_of_ne h31, StableHlo.devRef_ne_of_ne h32,
    StableHlo.devRef_ne_of_ne h33, StableHlo.devRef_ne_of_ne h34, StableHlo.devRef_ne_of_ne h35, StableHlo.devRef_ne_of_ne h36,
    StableHlo.devRef_ne_of_ne h37, StableHlo.devRef_ne_of_ne h38, StableHlo.devRef_ne_of_ne h39⟩

/-- And so none writes an array of the pipeline: the three argument arrays and the region's output array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  have key : ∀ w : Fin 4, (hostOps1 : List (HloOp τ sig (Elt F))).Forall fun op => Proc.devRef .tc (Pipeline.arrRef spec0 w) ∉ op.writes := by
    intro w
    fin_cases w
    · exact tail_keeps main_arg0 (by decide)
    · exact tail_keeps main_arg1 (by decide)
    · exact tail_keeps main_arg2 (by decide)
    · exact tail_keeps main_v0 (by decide)
  exact (List.forall_iff_forall_mem.mp (key w)) op hop

/-- The region finds every buffer as launched. -/
theorem V_eq (c : Dev nD) (b : Ref sig .tc) : V m c b = m ((c : Thread nD τ).loc b) := rfl

/-- A reference no host line after the region writes, and no window stages, ends as launched. -/
theorem W_of_keeps (dats : (p : Fin _) → (c : Dev nD) → Dat τ (Elt F) Unit ℕ (UR sig nD τ) ℕ (cfgs p) c) (c : Dev nD)
    (r : Ref sig .tc) (hk : (hostOps1 : List (HloOp τ sig (Elt F))).Forall fun op => Proc.devRef .tc r ∉ op.writes)
    (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simpa only [List.flatten_cons, List.flatten_nil, List.append_nil] using hk)),
    Pipeline.withArrays_of_ne _ c (V0 m c) _ r hw]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The kernel body on whole staging memrefs, the three inputs' at read contents `x1 x2 x3` and the output's at anything,
    runs to the continuation holding the inputs' as they were and the output's at the stored block. -/
theorem sound_kernel (c : Dev nD) (E : Set ℕ) (i : grid0.Coords)
    (arg1 : Memref sig .tc .vmem S8x1024x3 .f32) (harg1 : arg1.IsWhole) (arg2 : Memref sig .tc .vmem S8x1024x3 .f32) (harg2 : arg2.IsWhole)
    (arg3 : Memref sig .tc .vmem S8x1024x3 .f32) (harg3 : arg3.IsWhole) (arg4 : Memref sig .tc .vmem S8x128 .f32) (harg4 : arg4.IsWhole)
    (x1 x2 x3 : Vec F S8x1024x3 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out0_3 x1 x2 x3)) -∗ K ⟨⟩))
      ⊢ wp frame (wpE (defs₀ (F := F)) Variants.none c none) E (cc0__loss_kernel i arg1 harg1 arg2 harg2 arg3 harg3 arg4 harg4) K := by
  simp only [cc0__loss_kernel_eq_skeleton]; unfold cc0__loss_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold out0_3
  refine (View.read_writes_eq_canon _ _ _ (cover0_3 _)).trans ?_
  sl_unfold_run_names
  unfold outVal
  rfl

/-! ## The pipeline's proof data -/

/-- The proof data of the one pipeline on core `c`: the arrays as the region finds them; after the body at point `t` each
    input's buffer at its block and the output's at the stored block of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has every
    array of the pipeline at what the proof data says its write-backs leave and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME from the run: a staged argument array ends at its region-entry contents (an input window writes nothing
    back), an argument no window stages ends as the host lines leave it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_eq m c main_arg0))),
     ((h c).1 1).trans (((dats m 0 c).arrAt_in 1 rfl _).trans ((A_eq m c 1).trans (V_eq m c main_arg1))),
     ((h c).1 2).trans (((dats m 0 c).arrAt_in 2 rfl _).trans ((A_eq m c 2).trans (V_eq m c main_arg2))),
     ((h c).2 main_arg3 (Pipeline.mem_restRefs_of main_arg3 (by decide) (by decide))).trans
       (W_of_keeps m (dats m) c main_arg3 (tail_keeps main_arg3 (by decide)) (by decide)),
     ((h c).2 main_arg4 (Pipeline.mem_restRefs_of main_arg4 (by decide) (by decide))).trans
       (W_of_keeps m (dats m) c main_arg4 (tail_keeps main_arg4 (by decide)) (by decide)),
     ((h c).2 main_arg5 (Pipeline.mem_restRefs_of main_arg5 (by decide) (by decide))).trans
       (W_of_keeps m (dats m) c main_arg5 (tail_keeps main_arg5 (by decide)) (by decide))⟩) (run_main m ρ)

end Cert.Kernel.Hand

end
-- ==== Proof.KIBody.lean ====
/-
  What one grid point's body leaves in its output block, as ONE function of the three input blocks it is called on:
  the block `x1` of the first predicted cloud, the block `x2` of the second, the block `x3` of the targets (eight batch
  rows of 1024 points each). The body reads the target block whole and each predicted block whole once (for the matched-pair
  distances) and again in eight slabs of 128 points (for the nearest-neighbour terms); every value it computes on the way
  is one of the named payloads, and the block it stores is the last payload of the chain. This module threads the payloads
  in the order the body does, over the slabs read off the blocks, at any float instance.
-/
import proofs.«117573_j17695265260051_1_alg».proof.Proof.Gen.KernelIdeal.Skeleton
import Idealize.ShloMosaic.Lib.Pipeline.FrameBody

noncomputable section

namespace Cert.KernelIdeal.Body

open Idealize.ShloMosaic Idealize.ShloMosaic.TcCoe Idealize.SL.Sem
open Cert.KernelIdeal Cert.KernelIdeal.Gen

variable {F : FTy → Type} [FloatOps F]

/-! ## The rectangles the body reads and writes through -/

/-- A whole input block. -/
abbrev rAll : Rect S8x1024x3 := Rect.unit (s := S8x1024x3) ![0, 0, 0] S8x1024x3.size inb_S8x1024x3_S8x1024x3_0_0_0
/-- Slab `i` of a predicted block: its points `128·i … 128·i + 127`, all eight rows, all three coordinates. -/
abbrev rS0 : Rect S8x1024x3 := Rect.unit (s := S8x1024x3) ![0, 0, 0] S8x128x3.size inb_S8x1024x3_S8x128x3_0_0_0
abbrev rS1 : Rect S8x1024x3 := Rect.unit (s := S8x1024x3) ![0, 128, 0] S8x128x3.size inb_S8x1024x3_S8x128x3_0_128_0
abbrev rS2 : Rect S8x1024x3 := Rect.unit (s := S8x1024x3) ![0, 256, 0] S8x128x3.size inb_S8x1024x3_S8x128x3_0_256_0
abbrev rS3 : Rect S8x1024x3 := Rect.unit (s := S8x1024x3) ![0, 384, 0] S8x128x3.size inb_S8x1024x3_S8x128x3_0_384_0
abbrev rS4 : Rect S8x1024x3 := Rect.unit (s := S8x1024x3) ![0, 512, 0] S8x128x3.size inb_S8x1024x3_S8x128x3_0_512_0
abbrev rS5 : Rect S8x1024x3 := Rect.unit (s := S8x1024x3) ![0, 640, 0] S8x128x3.size inb_S8x1024x3_S8x128x3_0_640_0
abbrev rS6 : Rect S8x1024x3 := Rect.unit (s := S8x1024x3) ![0, 768, 0] S8x128x3.size inb_S8x1024x3_S8x128x3_0_768_0
abbrev rS7 : Rect S8x1024x3 := Rect.unit (s := S8x1024x3) ![0, 896, 0] S8x128x3.size inb_S8x1024x3_S8x128x3_0_896_0
/-- The whole output block. -/
abbrev rOut : Rect S8x128 := Rect.unit (s := S8x128) ![0, 0] S8x128.size inb_S8x128_S8x128_0_0

/-! ## The stored block -/

/-- The block the body stores, from the three input blocks: the payloads threaded as the body threads them. The first
    predicted cloud's eight slabs feed the first nearest-neighbour term (finished in `v200`), the second cloud's the second
    (finished inside the last payload); `v12` and `v19` are the two matched-pair averages. -/
def outVal (x1 x2 x3 : Vec F S8x1024x3 .f32) : FVec F S8x128 .f32 :=
  -- the target block, and what the body keeps of it: its copy in the narrow format and its squared norms
  let v0 : Vec F S8x1024x3 .f32 := View.ld x3 rAll
  let v4 : Vec F S8x1024x3 .f32 := View.ld x1 rAll
  let v5 : Vec F S8x1024x3 .f32 := View.ld x2 rAll
  let v1 := k0_pay2 v0
  let v3 := k0_pay3 v0
  -- the two matched-pair averages
  let v12 := k0_pay4 v0 v4
  let v19 := k0_pay5 v0 v5
  -- the first cloud, slab by slab: the running sum and the running minimum, from zero and +∞
  let v20 : FVec F S8x1024 .f32 := k0_pay6
  let v21 : FVec F S8 .f32 := k0_pay7
  let v34 := k0_pay8 v0 (View.ld x1 rS0)
  let v43 : Vec F S8x128x3 .f32 := View.ld x1 rS1
  let v64 : Vec F S8x128x3 .f32 := View.ld x1 rS2
  let v62 := k0_pay10 v1 v3 v21 v34 v43
  let v63 := k0_pay11 v1 v3 v20 v34 v43
  let v68 := k0_pay12 v1 v64
  let v73 := k0_pay13 v3 v64
  let v74 : FVec F S8x128x1024 .f32 := k0_pay14
  let v85 : Vec F S8x128x3 .f32 := View.ld x1 rS3
  let v106 : Vec F S8x128x3 .f32 := View.ld x1 rS4
  let v104 := k0_pay17 v1 v3 v62 v68 v73 v74 v85
  let v105 := k0_pay18 v1 v3 v63 v68 v73 v74 v85
  let v110 := k0_pay19 v1 v106
  let v115 := k0_pay20 v3 v106
  let v127 : Vec F S8x128x3 .f32 := View.ld x1 rS5
  let v148 : Vec F S8x128x3 .f32 := View.ld x1 rS6
  let v146 := k0_pay23 v1 v3 v104 v110 v115 v127
  let v147 := k0_pay24 v1 v3 v105 v110 v115 v127
  let v152 := k0_pay25 v1 v148
  let v154 := k0_pay26 v3
  let v155 := k0_pay27 v148
  let v169 : Vec F S8x128x3 .f32 := View.ld x1 rS7
  let v191 := k0_pay30 v1 v3 v146 v152 v154 v155 v169
  let v195 := k0_pay31 v1 v3 v147 v152 v154 v155 v169
  let v196 : FVec F S8 .f32 := k0_pay32
  -- the first nearest-neighbour term, finished
  let v200 := k0_pay33 v191 v195 v196
  -- the second cloud, slab by slab
  let v203 : Vec F S8x128x3 .f32 := View.ld x2 rS0
  let v224 : Vec F S8x128x3 .f32 := View.ld x2 rS1
  let v222 := k0_pay35 v1 v3 v203
  let v223 := k0_pay36 v1 v3 v203
  let v236 := k0_pay37 v1 v3 v224
  let v245 : Vec F S8x128x3 .f32 := View.ld x2 rS2
  let v266 : Vec F S8x128x3 .f32 := View.ld x2 rS3
  let v264 := k0_pay39 v1 v3 v222 v236 v245
  let v265 := k0_pay40 v1 v3 v223 v236 v245
  let v275 := k0_pay41 v3 v266
  let v277 := k0_pay42 v1 v266
  let v287 : Vec F S8x128x3 .f32 := View.ld x2 rS4
  let v308 : Vec F S8x128x3 .f32 := View.ld x2 rS5
  let v306 := k0_pay45 v1 v3 v264 v275 v277 v287
  let v307 := k0_pay46 v1 v3 v265 v275 v277 v287
  let v312 := k0_pay47 v1 v308
  let v317 := k0_pay48 v3 v308
  let cst_151 : F .f32 := Scalar.ofBits .f32 0x40000000#32
  let v329 : Vec F S8x128x3 .f32 := View.ld x2 rS6
  let v350 : Vec F S8x128x3 .f32 := View.ld x2 rS7
  let v348 := k0_pay51 v1 v3 v306 v312 v317 cst_151 v329
  let v349 := k0_pay52 v1 v3 v307 v312 v317 cst_151 v329
  let v354 := k0_pay53 v1 v350
  let v357 := k0_pay54 v350
  let v358 := k0_pay55 v3
  -- the stored block: the four per-row results side by side, then zeros
  k0_pay1 v12 v19 v200 v348 v349 v354 v357 v358

/-- What the output window's staging buffer holds after the body: its one store, which covers the block. -/
def out0_3 (x1 x2 x3 : Vec F S8x1024x3 .f32) : Vec F S8x128 .f32 :=
  View.canon [⟨rOut, outVal x1 x2 x3⟩]

/-- The one store covers the block. -/
theorem cover0_3 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

end Cert.KernelIdeal.Body

end
-- ==== Proof.KIFrame.lean ====
/-
  The frame of `KernelIdeal`: every weakly fair execution of @main — the one pipelined region over eight grid points, then
  the host lines that weigh and average its four per-row results — terminates without a fault and leaves the six argument
  arrays as launched; and, beyond the frame, the run with every array NAMED afterwards: the output array holds, block by
  block, what the body stores from the three input blocks of the same grid point (`Body.outVal`), and every other buffer
  what the host lines after the region compute from that.

  Point `t` of the grid fetches rows `8t … 8t+7` of each of the three point-cloud arrays into staging buffers, runs the
  body on them, and writes the [8, 128] block it stores back to rows `8t … 8t+7` of the output array. The body reads its
  three input buffers (whole, and the two predicted clouds again in eight slabs), reads the output buffer once without using
  what it read, and overwrites the output buffer whole; it keeps nothing from point to point. So the proof data is the plain
  one: an input buffer holds its block before and after the body, the output buffer holds the stored block after it.
-/
import proofs.«117573_j17695265260051_1_alg».proof.Proof.Gen.KernelIdeal.Launch
import proofs.«117573_j17695265260051_1_alg».proof.Proof.Gen.KernelIdeal.Skeleton
import proofs.«117573_j17695265260051_1_alg».proof.Proof.Gen.KernelIdeal.Points
import proofs.«117573_j17695265260051_1_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line comes before it, so they are the launch
    contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- No host line after the region writes the reference `r`, when `r` is none of the lines' result references: each line
    writes only its own result. -/
theorem tail_keeps (r : Ref sig .tc)
    (hr : r ≠ main_v1 ∧ r ≠ main_v2 ∧ r ≠ main_v3 ∧ r ≠ main_v4 ∧ r ≠ main_v5 ∧ r ≠ main_v6 ∧ r ≠ main_v7 ∧ r ≠ main_v8
      ∧ r ≠ main_v9 ∧ r ≠ main_cst ∧ r ≠ main_v10 ∧ r ≠ main_v11 ∧ r ≠ main_v12 ∧ r ≠ main_v13 ∧ r ≠ main_v14 ∧ r ≠ main_v15
      ∧ r ≠ main_cst_0 ∧ r ≠ main_v16 ∧ r ≠ main_v17 ∧ r ≠ main_v18 ∧ r ≠ main_v19 ∧ r ≠ main_v20 ∧ r ≠ main_v21 ∧ r ≠ main_cst_1
      ∧ r ≠ main_v22 ∧ r ≠ main_cst_2 ∧ r ≠ main_v23 ∧ r ≠ main_cst_3 ∧ r ≠ main_v24 ∧ r ≠ main_cst_4 ∧ r ≠ main_v25 ∧ r ≠ main_cst_5
      ∧ r ≠ main_v26 ∧ r ≠ main_cst_6 ∧ r ≠ main_v27 ∧ r ≠ main_v28 ∧ r ≠ main_v29 ∧ r ≠ main_v30 ∧ r ≠ main_v31) :
    (hostOps1 : List (HloOp τ sig (Elt F))).Forall fun op => Proc.devRef .tc r ∉ op.writes := by
  obtain ⟨h1, h2, h3, h4, h5, h6, h7, h8, h9, h10, h11, h12, h13, h14, h15, h16, h17, h18, h19, h20, h21, h22, h23, h24, h25,
    h26, h27, h28, h29, h30, h31, h32, h33, h34, h35, h36, h37, h38, h39⟩ := hr
  simp only [hostOps1, List.Forall, StableHlo.nullary_writes, StableHlo.unary_writes, StableHlo.binary_writes,
    StableHlo.reshape_writes, StableHlo.nary_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12,
    StableHlo.devRef_ne_of_ne h13, StableHlo.devRef_ne_of_ne h14, StableHlo.devRef_ne_of_ne h15, StableHlo.devRef_ne_of_ne h16,
    StableHlo.devRef_ne_of_ne h17, StableHlo.devRef_ne_of_ne h18, StableHlo.devRef_ne_of_ne h19, StableHlo.devRef_ne_of_ne h20,
    StableHlo.devRef_ne_of_ne h21, StableHlo.devRef_ne_of_ne h22, StableHlo.devRef_ne_of_ne h23, StableHlo.devRef_ne_of_ne h24,
    StableHlo.devRef_ne_of_ne h25, StableHlo.devRef_ne_of_ne h26, StableHlo.devRef_ne_of_ne h27, StableHlo.devRef_ne_of_ne h28,
    StableHlo.devRef_ne_of_ne h29, StableHlo.devRef_ne_of_ne h30, StableHlo.devRef_ne_of_ne h31, StableHlo.devRef_ne_of_ne h32,
    StableHlo.devRef_ne_of_ne h33, StableHlo.devRef_ne_of_ne h34, StableHlo.devRef_ne_of_ne h35, StableHlo.devRef_ne_of_ne h36,
    StableHlo.devRef_ne_of_ne h37, StableHlo.devRef_ne_of_ne h38, StableHlo.devRef_ne_of_ne h39⟩

/-- And so none writes an array of the pipeline: the three argument arrays and the region's output array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  have key : ∀ w : Fin 4, (hostOps1 : List (HloOp τ sig (Elt F))).Forall fun op => Proc.devRef .tc (Pipeline.arrRef spec0 w) ∉ op.writes := by
    intro w
    fin_cases w
    · exact tail_keeps main_arg0 (by decide)
    · exact tail_keeps main_arg1 (by decide)
    · exact tail_keeps main_arg2 (by decide)
    · exact tail_keeps main_v0 (by decide)
  exact (List.forall_iff_forall_mem.mp (key w)) op hop

/-- The region finds every buffer as launched. -/
theorem V_eq (c : Dev nD) (b : Ref sig .tc) : V m c b = m ((c : Thread nD τ).loc b) := rfl

/-- A reference no host line after the region writes, and no window stages, ends as launched. -/
theorem W_of_keeps (dats : (p : Fin _) → (c : Dev nD) → Dat τ (Elt F) Unit ℕ (UR sig nD τ) ℕ (cfgs p) c) (c : Dev nD)
    (r : Ref sig .tc) (hk : (hostOps1 : List (HloOp τ sig (Elt F))).Forall fun op => Proc.devRef .tc r ∉ op.writes)
    (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simpa only [List.flatten_cons, List.flatten_nil, List.append_nil] using hk)),
    Pipeline.withArrays_of_ne _ c (V0 m c) _ r hw]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The kernel body on whole staging memrefs, the three inputs' at read contents `x1 x2 x3` and the output's at anything,
    runs to the continuation holding the inputs' as they were and the output's at the stored block. -/
theorem sound_kernel (c : Dev nD) (E : Set ℕ) (i : grid0.Coords)
    (arg1 : Memref sig .tc .vmem S8x1024x3 .f32) (harg1 : arg1.IsWhole) (arg2 : Memref sig .tc .vmem S8x1024x3 .f32) (harg2 : arg2.IsWhole)
    (arg3 : Memref sig .tc .vmem S8x1024x3 .f32) (harg3 : arg3.IsWhole) (arg4 : Memref sig .tc .vmem S8x128 .f32) (harg4 : arg4.IsWhole)
    (x1 x2 x3 : Vec F S8x1024x3 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out0_3 x1 x2 x3)) -∗ K ⟨⟩))
      ⊢ wp frame (wpE (defs₀ (F := F)) Variants.none c none) E (cc0__loss_kernel i arg1 harg1 arg2 harg2 arg3 harg3 arg4 harg4) K := by
  simp only [cc0__loss_kernel_eq_skeleton]; unfold cc0__loss_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold out0_3
  refine (View.read_writes_eq_canon _ _ _ (cover0_3 _)).trans ?_
  sl_unfold_run_names
  unfold outVal
  rfl

/-! ## The pipeline's proof data -/

/-- The proof data of the one pipeline on core `c`: the arrays as the region finds them; after the body at point `t` each
    input's buffer at its block and the output's at the stored block of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has every
    array of the pipeline at what the proof data says its write-backs leave and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME from the run: a staged argument array ends at its region-entry contents (an input window writes nothing
    back), an argument no window stages ends as the host lines leave it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_eq m c main_arg0))),
     ((h c).1 1).trans (((dats m 0 c).arrAt_in 1 rfl _).trans ((A_eq m c 1).trans (V_eq m c main_arg1))),
     ((h c).1 2).trans (((dats m 0 c).arrAt_in 2 rfl _).trans ((A_eq m c 2).trans (V_eq m c main_arg2))),
     ((h c).2 main_arg3 (Pipeline.mem_restRefs_of main_arg3 (by decide) (by decide))).trans
       (W_of_keeps m (dats m) c main_arg3 (tail_keeps main_arg3 (by decide)) (by decide)),
     ((h c).2 main_arg4 (Pipeline.mem_restRefs_of main_arg4 (by decide) (by decide))).trans
       (W_of_keeps m (dats m) c main_arg4 (tail_keeps main_arg4 (by decide)) (by decide)),
     ((h c).2 main_arg5 (Pipeline.mem_restRefs_of main_arg5 (by decide) (by decide))).trans
       (W_of_keeps m (dats m) c main_arg5 (tail_keeps main_arg5 (by decide)) (by decide))⟩) (run_main m ρ)

end Cert.KernelIdeal.Hand

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.KITail.lean ====
/-
  The last stretch of `KernelIdeal`'s @main, after its region: the region's [64, 128] output array carries the four per-row
  results in its columns 0 to 3 (the symmetric and the plain term of the first cloud, then of the second); the host lines
  cut the four columns out, weigh each cloud's pair by the row's symmetry flag (`sf·s + (1 - sf)·a`) and by the cloud's
  own flag, and return the three averages over the 64 rows: of the sum of the two weighed losses, of the first, of the
  second. Here that stretch is ONE function of the three flag arrays and the four columns, and the 39 host lines are shown
  to compute it from any buffer contents.
-/
import proofs.«117573_j17695265260051_1_alg».proof.Proof.Gen.KernelIdeal.Launch
import proofs.«117573_j17695265260051_1_alg».proof.Proof.LibNary3Apply
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- One cloud's weighed loss per row: `fl · (sf · s + (1 - sf) · a)`. -/
def weigh (fl sf s a : FVec F S64 .f32) : FVec F S64 .f32 :=
  mulf fl (addf (mulf sf s) (mulf (subf (broadcastInDim S64 ![] bcast_S_S64 (constant S_ .f32 0x3F800000#32)) sf) a))

/-- The average over the 64 rows: the sum from zero, divided by 64. -/
def mean (x : FVec F S64 .f32) : FVec F S_ .f32 :=
  Host.divf (Host.reduceAdd x (constant S_ .f32 0x00000000#32) reducesTo_S64_S_d0 h_S_) (constant S_ .f32 0x42800000#32)

/-- The three returned numbers from the flags and the four per-row results. -/
def tail7 (f1 f2 sf s1 a1 s2 a2 : FVec F S64 .f32) : FVec F S3 .f32 :=
  concatenate S3 0
    [⟨S1, broadcastInDim S1 ![] bcast_S_S1 (mean (addf (weigh f1 sf s1 a1) (weigh f2 sf s2 a2)))⟩,
     ⟨S1, broadcastInDim S1 ![] bcast_S_S1 (mean (weigh f1 sf s1 a1))⟩,
     ⟨S1, broadcastInDim S1 ![] bcast_S_S1 (mean (weigh f2 sf s2 a2))⟩]
    concatenates_S1_S1_S1_S3_d0

/-- Column `k` of the region's output array, as a [64] array. -/
def col0 (o : FVec F S64x128 .f32) : FVec F S64 .f32 := shapeCast S64 (extractStridedSlice S64x1 ![0, 0] o slices_S64x128_S64x1_0_0) shapeCasts_S64x1_S64
def col1 (o : FVec F S64x128 .f32) : FVec F S64 .f32 := shapeCast S64 (extractStridedSlice S64x1 ![0, 1] o slices_S64x128_S64x1_0_1) shapeCasts_S64x1_S64
def col2 (o : FVec F S64x128 .f32) : FVec F S64 .f32 := shapeCast S64 (extractStridedSlice S64x1 ![0, 2] o slices_S64x128_S64x1_0_2) shapeCasts_S64x1_S64
def col3 (o : FVec F S64x128 .f32) : FVec F S64 .f32 := shapeCast S64 (extractStridedSlice S64x1 ![0, 3] o slices_S64x128_S64x1_0_3) shapeCasts_S64x1_S64

/-- From any buffer contents `W`, the host lines after the region leave in the result buffer the three averages of the
    flags and the four columns of the region's output array as `W` has them. -/
theorem tail_result (W : Valuation τ sig (Elt F)) :
    StableHlo.after (hostOps1 (F := F)) W (Proc.devRef .tc main_v31)
      = tail7 (W (Proc.devRef .tc main_arg3)) (W (Proc.devRef .tc main_arg4)) (W (Proc.devRef .tc main_arg5))
          (col0 (W (Proc.devRef .tc main_v0))) (col1 (W (Proc.devRef .tc main_v0)))
          (col2 (W (Proc.devRef .tc main_v0))) (col3 (W (Proc.devRef .tc main_v0))) := by
  simp (disch := decide) only [after_cons, after_nil,
    nullary_result', unary_result', binary_result', ternary_result', quaternary_result', reshape_result', Cert.Nary3.nary3_result_apply',
    unaryIndexed_result', binaryIndexed_result',
    nullary_result_ne', unary_result_ne', binary_result_ne', ternary_result_ne', quaternary_result_ne', reshape_result_ne',
    nary_result_ne', unaryIndexed_result_ne', binaryIndexed_result_ne']
  rfl

end Cert.KernelIdeal.Tail

end
-- ==== Proof.KIRun.lean ====
/-
  The idealized kernel program's run with its RESULT named: after every weakly fair execution the result buffer holds the
  three averages (`Tail.tail7`) of the three flag arrays as launched and the four columns 0 to 3 of the region's output
  array as its eight write-backs leave it; and the six argument arrays are as launched. Also here: column `k` of a
  [64, 128] array read at row `b` is the array at `(b, k)`.
-/
import proofs.«117573_j17695265260051_1_alg».proof.Proof.KIFrame
import proofs.«117573_j17695265260051_1_alg».proof.Proof.KITail
import Idealize.ShloMosaic.Lib.Pipeline.Value
import Idealize.ShloMosaic.Lib.ValueIdx

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Tail
open ValueIdx

variable {F : FTy → Type} [FloatOps F]

/-! ## A column of the output array at a row -/

/-- The slice of column `k` and its cast to one axis, read at row `b`: the array at `(b, k)`. -/
theorem col_read (o : FVec F S64x128 .f32) (k : Fin 128) (h : S64x128.Slices ![0, k.val] S64x1) (b : Fin 64) :
    shapeCast S64 (extractStridedSlice S64x1 ![0, k.val] o h) shapeCasts_S64x1_S64 (ix1 b) = o (ix2 b k) := by
  rw [shapeCast_apply (s := S64x1) (t := S64) _ shapeCasts_S64x1_S64 (ix1 b) (ix2 b (0 : Fin 1))
    (by rw [Shape.rowMajor_val_two, Shape.rowMajor_val_one]; simp)]
  exact extractStridedSlice_apply _ o h (ix2 b (0 : Fin 1)) (ix2 b k)
    (fun a => by match a with | ⟨0, _⟩ => simp | ⟨1, _⟩ => simp)

theorem col0_apply (o : FVec F S64x128 .f32) (b : Fin 64) : col0 o (ix1 b) = o (ix2 b (0 : Fin 128)) :=
  col_read o 0 slices_S64x128_S64x1_0_0 b
theorem col1_apply (o : FVec F S64x128 .f32) (b : Fin 64) : col1 o (ix1 b) = o (ix2 b (1 : Fin 128)) :=
  col_read o 1 slices_S64x128_S64x1_0_1 b
theorem col2_apply (o : FVec F S64x128 .f32) (b : Fin 64) : col2 o (ix1 b) = o (ix2 b (2 : Fin 128)) :=
  col_read o 2 slices_S64x128_S64x1_0_2 b
theorem col3_apply (o : FVec F S64x128 .f32) (b : Fin 64) : col3 o (ix1 b) = o (ix2 b (3 : Fin 128)) :=
  col_read o 3 slices_S64x128_S64x1_0_3 b

/-! ## The result buffer after the host lines -/

variable (m : (ℓ : Loc nD τ sig) → Buf (Elt F) ℓ) (ρ : Dev nD → PrngReg)

/-- What the host lines after the region leave in the result buffer: they start from the region's exit contents, where
    the output array is what the write-backs left and the flag arrays are as launched. -/
theorem tail_v31 (dats : (p : Fin 1) → (c : Dev nD) → Dat τ (Elt F) Unit ℕ (UR sig nD τ) ℕ (cfgs p) c) (c : Dev nD) :
    Pipeline.afterTail₀ cfgs dats 0 (Hand.V0 m) [hostOps1] c main_v31
      = tail7 (m ((c.tc : Thread nD τ).loc main_arg3)) (m ((c.tc : Thread nD τ).loc main_arg4)) (m ((c.tc : Thread nD τ).loc main_arg5))
          (col0 ((dats 0 c).arrAt 3 cfg0.N)) (col1 ((dats 0 c).arrAt 3 cfg0.N))
          (col2 ((dats 0 c).arrAt 3 cfg0.N)) (col3 ((dats 0 c).arrAt 3 cfg0.N)) := by
  unfold Pipeline.afterTail₀
  simp only [List.flatten_cons, List.flatten_nil, List.append_nil]
  have e0 := Pipeline.withArrays_arr spec0 launch0.win.arr_inj c (Hand.V0 m c) (fun w => (dats 0 c).arrAt w cfg0.N) 3
  have e3 := Pipeline.withArrays_of_ne spec0 c (Hand.V0 m c) (fun w => (dats 0 c).arrAt w cfg0.N) main_arg3 (by decide)
  have e4 := Pipeline.withArrays_of_ne spec0 c (Hand.V0 m c) (fun w => (dats 0 c).arrAt w cfg0.N) main_arg4 (by decide)
  have e5 := Pipeline.withArrays_of_ne spec0 c (Hand.V0 m c) (fun w => (dats 0 c).arrAt w cfg0.N) main_arg5 (by decide)
  refine (tail_result _).trans ?_
  rw [e0, e3, e4, e5]
  rfl

/-- The run with the result named. -/
theorem run_named : θ_run defs (onTc (τ := τ) (main (F := F))) ⟨m, fun _ => 0, ρ⟩ (fun r => ∀ c : Dev nD,
      r.2.mem ((c.tc : Thread nD τ).loc main_v31)
        = tail7 (m ((c.tc : Thread nD τ).loc main_arg3)) (m ((c.tc : Thread nD τ).loc main_arg4)) (m ((c.tc : Thread nD τ).loc main_arg5))
            (col0 ((Hand.dats m 0 c).arrAt 3 cfg0.N)) (col1 ((Hand.dats m 0 c).arrAt 3 cfg0.N))
            (col2 ((Hand.dats m 0 c).arrAt 3 cfg0.N)) (col3 ((Hand.dats m 0 c).arrAt 3 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v31 (Pipeline.mem_restRefs_of main_v31 (by decide) (by decide))).trans (tail_v31 m (Hand.dats m) c),
     ((h c).1 0).trans (((Hand.dats m 0 c).arrAt_in 0 rfl _).trans ((Hand.A_eq m c 0).trans (Hand.V_eq m c main_arg0))),
     ((h c).1 1).trans (((Hand.dats m 0 c).arrAt_in 1 rfl _).trans ((Hand.A_eq m c 1).trans (Hand.V_eq m c main_arg1))),
     ((h c).1 2).trans (((Hand.dats m 0 c).arrAt_in 2 rfl _).trans ((Hand.A_eq m c 2).trans (Hand.V_eq m c main_arg2))),
     ((h c).2 main_arg3 (Pipeline.mem_restRefs_of main_arg3 (by decide) (by decide))).trans
       (Hand.W_of_keeps m (Hand.dats m) c main_arg3 (Hand.tail_keeps main_arg3 (by decide)) (by decide)),
     ((h c).2 main_arg4 (Pipeline.mem_restRefs_of main_arg4 (by decide) (by decide))).trans
       (Hand.W_of_keeps m (Hand.dats m) c main_arg4 (Hand.tail_keeps main_arg4 (by decide)) (by decide)),
     ((h c).2 main_arg5 (Pipeline.mem_restRefs_of main_arg5 (by decide) (by decide))).trans
       (Hand.W_of_keeps m (Hand.dats m) c main_arg5 (Hand.tail_keeps main_arg5 (by decide)) (by decide))⟩) (Hand.run_main m ρ)

end Cert.KernelIdeal.Run

end
-- ==== Proof.Spec.lean ====
/-
  The mathematics both programs compute, for ONE batch row: a cloud of 1024 predicted points `P` and a cloud of 1024
  target points `T` in three coordinates, as extended reals.

  The "squared distance" of a predicted point `a` and a target point `t` is taken by the Gram expansion
  `(|a|² + |t|²) - 2·(a·t)`; the distance is its root after clamping at zero. The symmetric term averages, over the
  1024 slots, half the sum of the distance from predicted point `n` to its nearest target and the distance from target
  `n` to its nearest predicted point. The plain term averages the distances of the 1024 matched pairs.

  The two programs spell the symmetric term differently. The reference clamps and roots every one of the 1024 × 1024
  expansions, takes the two minima of the ROOTS, halves their sum slot by slot and averages. The kernel walks the predicted
  points in eight chunks of 128: it takes the minima of the EXPANSIONS (over all targets for each predicted point of the
  chunk; over the chunk for each target, folded into a running minimum), clamps and roots only the minima, sums the first
  kind chunk by chunk, and at the end halves the sum of the two averages. They agree because the clamped root is monotone
  (so it passes through a minimum, and it fixes +∞), because sums and minima regroup freely, and because every root is
  non-negative, where the extended reals distribute a non-negative real factor over a sum.
-/
import Idealize.ShloMosaic.PureOps.Ideal
import Idealize.ShloMosaic.PureOps.Ideal.Laws

noncomputable section

namespace Cert.Chamfer

open Idealize.ShloMosaic

/-- One batch row's cloud: 1024 points of three coordinates. -/
abbrev Pts := Fin 1024 → Fin 3 → EReal

/-- The literals both programs spell: 2, 1/2, 1024 and +∞, as their patterns denote them. -/
abbrev cTwo : EReal := Ideal.ofBits .f32 0x40000000#32
abbrev cHalf : EReal := Ideal.ofBits .f32 0x3F000000#32
abbrev c1024 : EReal := Ideal.ofBits .f32 0x44800000#32
abbrev cInf : EReal := Ideal.ofBits .f32 0x7F800000#32

/-- The squared norm of a point. -/
def sq (a : Fin 3 → EReal) : EReal := ∑ d : Fin 3, a d * a d
/-- The inner product of two points. -/
def dot (a t : Fin 3 → EReal) : EReal := ∑ d : Fin 3, a d * t d
/-- The squared distance by the Gram expansion, in the grouping both programs use. -/
def gram (a t : Fin 3 → EReal) : EReal := (sq a + sq t) - cTwo * dot a t
/-- The distance from an expansion: clamped at zero, then rooted. -/
def rt (x : EReal) : EReal := Ideal.sqrt (max x 0)

/-- Predicted point `n` of chunk `i`: point `128·i + n`. -/
def row (i : Fin 8) (n : Fin 128) : Fin 1024 := ⟨128 * i.val + n.val, by omega⟩

/-! ## The reference's form -/

/-- The distance from predicted point `n` to its nearest target: the minimum of the 1024 distances, from +∞. -/
def nearT (P T : Pts) (n : Fin 1024) : EReal :=
  Finset.univ.fold min cInf (fun m : Fin 1024 => rt (gram (P n) (T m)))
/-- The distance from target `m` to its nearest predicted point. -/
def nearP (P T : Pts) (m : Fin 1024) : EReal :=
  Finset.univ.fold min cInf (fun n : Fin 1024 => rt (gram (P n) (T m)))
/-- The symmetric term as the reference takes it: slot by slot half the sum of the two, averaged. -/
def symR (P T : Pts) : EReal :=
  Ideal.div (∑ n : Fin 1024, cHalf * (nearT P T n + nearP P T n)) c1024

/-! ## The kernel's form -/

/-- Chunk `i`'s share of the first sum: over its 128 predicted points, the clamped root of the minimum expansion. -/
def chunkSum (P T : Pts) (i : Fin 8) : EReal :=
  ∑ n : Fin 128, rt (Finset.univ.fold min cInf (fun m : Fin 1024 => gram (P (row i n)) (T m)))
/-- Chunk `i`'s minimum expansion against target `m`. -/
def chunkMin (P T : Pts) (i : Fin 8) (m : Fin 1024) : EReal :=
  Finset.univ.fold min cInf (fun n : Fin 128 => gram (P (row i n)) (T m))
/-- The first sum as the kernel accumulates it: from zero, chunk by chunk. -/
def sumK (P T : Pts) : EReal :=
  (((((((0 + chunkSum P T 0) + chunkSum P T 1) + chunkSum P T 2) + chunkSum P T 3) + chunkSum P T 4)
    + chunkSum P T 5) + chunkSum P T 6) + chunkSum P T 7
/-- The running minimum against target `m` after the eight chunks: from +∞, chunk by chunk. -/
def runK (P T : Pts) (m : Fin 1024) : EReal :=
  min (min (min (min (min (min (min (min cInf (chunkMin P T 0 m)) (chunkMin P T 1 m)) (chunkMin P T 2 m))
    (chunkMin P T 3 m)) (chunkMin P T 4 m)) (chunkMin P T 5 m)) (chunkMin P T 6 m)) (chunkMin P T 7 m)
/-- The symmetric term as the kernel takes it: half the sum of the two averages. -/
def symK (P T : Pts) : EReal :=
  cHalf * (Ideal.div (sumK P T) c1024 + Ideal.div (∑ m : Fin 1024, rt (runK P T m)) c1024)

/-! ## The plain term, one form for both -/

/-- The average distance of the matched pairs. -/
def asym (P T : Pts) : EReal :=
  Ideal.div (∑ n : Fin 1024, Ideal.sqrt (∑ d : Fin 3, (P n d - T n d) * (P n d - T n d))) c1024

end Cert.Chamfer

end
-- ==== Proof.SpecIdx.lean ====
/-
  One batch row of an array of point clouds, as the 1024 points the mathematics speaks of: of a whole array (64 rows) and
  of one block of it (8 rows).
-/
import proofs.«117573_j17695265260051_1_alg».proof.Proof.Spec
import Idealize.ShloMosaic.Lib.ValueIdx

noncomputable section

namespace Cert.Chamfer

open Idealize.ShloMosaic

/-- Row `b` of a [64, 1024, 3] array: point `n`, coordinate `d`. -/
def rowOf (x : (⟨3, ![64, 1024, 3]⟩ : Shape).Idx → EReal) (b : Fin 64) : Pts :=
  fun n d => x (ValueIdx.ix3 b n d)

/-- Row `b` of a [8, 1024, 3] block. -/
def rowOf8 (x : (⟨3, ![8, 1024, 3]⟩ : Shape).Idx → EReal) (b : Fin 8) : Pts :=
  fun n d => x (ValueIdx.ix3 b n d)

end Cert.Chamfer

end
-- ==== Proof.KIFinal.lean ====
/-
  From blocks to the array, for the kernel's one pipelined region. Point t of the grid writes the [8, 128] block the body
  stores from rows 8t … 8t+7 of the three point-cloud arrays back to rows 8t … 8t+7 of the output array; the eight blocks
  tile the array. So after the eight write-backs the output array is ONE function of the three argument arrays, index by
  index: row 8t + r is row r of what the body stores from the three blocks of rows 8t … 8t+7.
-/
import proofs.«117573_j17695265260051_1_alg».proof.Proof.KIFrame
import proofs.«117573_j17695265260051_1_alg».proof.Proof.SpecIdx
import Idealize.ShloMosaic.Lib.Pipeline.Value
import Idealize.ShloMosaic.Lib.ValueIdx

noncomputable section

namespace Cert.KernelIdeal.Final

open Idealize.ShloMosaic Idealize.ShloMosaic.TcCoe Cert.Chamfer Cert.KernelIdeal Cert.KernelIdeal.Gen
open Idealize.ShloMosaic.Pipeline (Dat)

variable {F : FTy → Type} [FloatOps F]

/-- Rows 8t … 8t+7 of a [64,1024,3] array, as a block. -/
def blkOf (x : FVec F S64x1024x3 .f32) (t : Fin 8) : Vec F S8x1024x3 .f32 :=
  fun y => x (ValueIdx.ix3 (⟨8 * t.val + (y 0).val, by have h : (y 0).val < 8 := (y 0).isLt; have := t.isLt; omega⟩ : Fin 64)
    (⟨(y 1).val, (y 1).isLt⟩ : Fin 1024) (⟨(y 2).val, (y 2).isLt⟩ : Fin 3))

/-- The output array as one function of the three argument arrays: row j₀ is row j₀ mod 8 of the block the body stores
    from rows 8 ⌊j₀ / 8⌋ … 8 ⌊j₀ / 8⌋ + 7 of each. -/
def rowsOut (x0 x1 x2 : FVec F S64x1024x3 .f32) : S64x128.Idx → Elt F .f32 := fun j =>
  Body.outVal (blkOf x0 ⟨(j 0).val / 8, by have h : (j 0).val < 64 := (j 0).isLt; omega⟩)
    (blkOf x1 ⟨(j 0).val / 8, by have h : (j 0).val < 64 := (j 0).isLt; omega⟩)
    (blkOf x2 ⟨(j 0).val / 8, by have h : (j 0).val < 64 := (j 0).isLt; omega⟩)
    (ValueIdx.ix2 (⟨(j 0).val % 8, Nat.mod_lt _ (by decide)⟩ : Fin 8) (⟨(j 1).val, (j 1).isLt⟩ : Fin 128))

/-- That function at an index of row 8T + y₀: the stored block of the three blocks of rows 8T … 8T+7, at (y₀, y₁). -/
theorem rowsOut_apply (x0 x1 x2 : FVec F S64x1024x3 .f32) (T : Fin 8) (j : S64x128.Idx) (y : S8x128.Idx)
    (h0 : (j 0).val = 8 * T.val + (y 0).val) (h1 : (j 1).val = (y 1).val) :
    rowsOut x0 x1 x2 j = Body.outVal (blkOf x0 T) (blkOf x1 T) (blkOf x2 T) y := by
  have hy : (y 0).val < 8 := (y 0).isLt
  have key : ∀ (T' : Fin 8) (y' : S8x128.Idx), T' = T → y' = y →
      Body.outVal (blkOf x0 T') (blkOf x1 T') (blkOf x2 T') y' = Body.outVal (blkOf x0 T) (blkOf x1 T) (blkOf x2 T) y := by
    rintro _ _ rfl rfl; rfl
  unfold rowsOut
  refine key _ _ (Fin.ext ?_) (funext fun a => Fin.ext ?_)
  · show (j 0).val / 8 = T.val; omega
  · match a with
    | ⟨0, _⟩ => show (j 0).val % 8 = (y 0).val; omega
    | ⟨1, _⟩ => exact h1

variable (m : (ℓ : Loc nD τ sig) → Buf (Elt F) ℓ)

theorem hz : (![0, 0] : Fin 2 → Nat) = fun _ => 0 := funext fun a => by fin_cases a <;> rfl

/-- The printed index maps, decided over the grid: every window's block index is the point on the row axis and 0 on the
    others. -/
theorem idx_facts : ∀ t : Fin cfg0.N, win0_3.index t (0 : Fin 2) = t.val ∧ win0_3.index t (1 : Fin 2) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a number below 8. -/
abbrev pt (t : Fin cfg0.N) : Fin 8 := ⟨t.val, Nat.lt_of_lt_of_le t.isLt (Nat.le_of_eq N_0)⟩

/-- Each input window's block at point t is rows 8t … 8t+7 of its array as the region finds it. -/
theorem iblk0_eq (c : Dev nD) (t : Fin cfg0.N) :
    (Hand.iblk m c 0 t : Vec F S8x1024x3 .f32) = blkOf (Hand.V m c main_arg0) (pt t) := by
  obtain ⟨-, -, e0, e1, e2, -⟩ := idx_facts t
  funext y
  unfold Hand.iblk
  rw [View.read_apply]
  show Hand.V m c main_arg0 _ = Hand.V m c main_arg0 _
  congr 1
  funext a
  apply Fin.ext
  match a with
  | ⟨0, _⟩ => show win0_0.index t (0 : Fin 3) * 8 + 1 * (y 0).val = 8 * t.val + (y 0).val; rw [e0]; omega
  | ⟨1, _⟩ => show win0_0.index t (1 : Fin 3) * 1024 + 1 * (y 1).val = (y 1).val; rw [e1]; omega
  | ⟨2, _⟩ => show win0_0.index t (2 : Fin 3) * 3 + 1 * (y 2).val = (y 2).val; rw [e2]; omega

theorem iblk1_eq (c : Dev nD) (t : Fin cfg0.N) :
    (Hand.iblk m c 1 t : Vec F S8x1024x3 .f32) = blkOf (Hand.V m c main_arg1) (pt t) := by
  obtain ⟨-, -, -, -, -, e0, e1, e2, -⟩ := idx_facts t
  funext y
  unfold Hand.iblk
  rw [View.read_apply]
  show Hand.V m c main_arg1 _ = Hand.V m c main_arg1 _
  congr 1
  funext a
  apply Fin.ext
  match a with
  | ⟨0, _⟩ => show win0_1.index t (0 : Fin 3) * 8 + 1 * (y 0).val = 8 * t.val + (y 0).val; rw [e0]; omega
  | ⟨1, _⟩ => show win0_1.index t (1 : Fin 3) * 1024 + 1 * (y 1).val = (y 1).val; rw [e1]; omega
  | ⟨2, _⟩ => show win0_1.index t (2 : Fin 3) * 3 + 1 * (y 2).val = (y 2).val; rw [e2]; omega
theorem iblk2_eq (c : Dev nD) (t : Fin cfg0.N) :
    (Hand.iblk m c 2 t : Vec F S8x1024x3 .f32) = blkOf (Hand.V m c main_arg2) (pt t) := by
  obtain ⟨-, -, -, -, -, -, -, -, e0, e1, e2⟩ := idx_facts t
  funext y
  unfold Hand.iblk
  rw [View.read_apply]
  show Hand.V m c main_arg2 _ = Hand.V m c main_arg2 _
  congr 1
  funext a
  apply Fin.ext
  match a with
  | ⟨0, _⟩ => show win0_2.index t (0 : Fin 3) * 8 + 1 * (y 0).val = 8 * t.val + (y 0).val; rw [e0]; omega
  | ⟨1, _⟩ => show win0_2.index t (1 : Fin 3) * 1024 + 1 * (y 1).val = (y 1).val; rw [e1]; omega
  | ⟨2, _⟩ => show win0_2.index t (2 : Fin 3) * 3 + 1 * (y 2).val = (y 2).val; rw [e2]; omega

/-- WHAT POINT t WRITES BACK is block t of that function of the argument arrays as the region finds them. -/
theorem flushed_eq (c : Dev nD) (t : Fin cfg0.N) :
    (Hand.dats m 0 c).flushed 3 t
      = ((cfg0.win 3).blk t).view.read (Elt F) (rowsOut (Hand.V m c main_arg0) (Hand.V m c main_arg1) (Hand.V m c main_arg2)) := by
  show (cfg0.win 3).cut (grid0.coords t) ((Hand.dats m 0 c).after 3 t) = _
  rw [Hand.after0_3]
  unfold Body.out0_3
  rw [View.canon_unit_zero hz]
  obtain ⟨e0, e1, -⟩ := idx_facts t
  funext y
  show Body.outVal (Hand.iblk m c 0 t) (Hand.iblk m c 1 t) (Hand.iblk m c 2 t) y
    = rowsOut (Hand.V m c main_arg0) (Hand.V m c main_arg1) (Hand.V m c main_arg2) (((cfg0.win 3).blk t).view.emb y)
  rw [iblk0_eq, iblk1_eq, iblk2_eq]
  refine (rowsOut_apply _ _ _ (pt t) _ y ?_ ?_).symm
  · show win0_3.index t (0 : Fin 2) * 8 + 1 * (y 0).val = 8 * t.val + (y 0).val; rw [e0]; omega
  · show win0_3.index t (1 : Fin 2) * 128 + 1 * (y 1).val = (y 1).val; rw [e1]; omega

/-- An index of the array is in point t's block iff each coordinate is in the block's range on its axis. -/
theorem mem_blk (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- The eight blocks tile the array: row j₀ is in the block of point ⌊j₀ / 8⌋. -/
theorem cover (i : S64x128.Idx) : ∃ t : Fin cfg0.N, (cfg0.win 3).flush t = true ∧ i ∈ ((cfg0.win 3).blk t).view.set := by
  have hi0 : (i 0).val < 64 := (i 0).isLt
  have hi1 : (i 1).val < 128 := (i 1).isLt
  have hN : (i 0).val / 8 < cfg0.N := by rw [show cfg0.N = 8 from N_0]; omega
  obtain ⟨e0, e1, -⟩ := idx_facts ⟨(i 0).val / 8, hN⟩
  refine ⟨⟨(i 0).val / 8, hN⟩, flush0_3 _, ?_⟩
  rw [mem_blk]
  intro a
  match a with
  | ⟨0, _⟩ =>
    show win0_3.index ⟨(i 0).val / 8, hN⟩ (0 : Fin 2) * 8 ≤ (i 0).val ∧ (i 0).val < win0_3.index ⟨(i 0).val / 8, hN⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, hN⟩ (1 : Fin 2) * 128 ≤ (i 1).val ∧ (i 1).val < win0_3.index ⟨(i 0).val / 8, hN⟩ (1 : Fin 2) * 128 + 128
    rw [e1]; omega

/-- THE ARRAY after the eight write-backs: that function of the argument arrays as the region finds them. -/
theorem final (c : Dev nD) :
    (Hand.dats m 0 c).arrAt 3 cfg0.N = rowsOut (Hand.V m c main_arg0) (Hand.V m c main_arg1) (Hand.V m c main_arg2) :=
  (Hand.dats m 0 c).arrAt_eq_of_cover 3 (rowsOut (Hand.V m c main_arg0) (Hand.V m c main_arg1) (Hand.V m c main_arg2))
    (fun t _ => flushed_eq m c t) cover

/-- Read at row 8t + r, lane k: row r, lane k of what the body stores from rows 8t … 8t+7 of the three arrays. -/
theorem arrAt_apply (c : Dev nD) (t r : Fin 8) (k : Fin 128) :
    (Hand.dats m 0 c).arrAt 3 cfg0.N (ValueIdx.ix2 (⟨8 * t.val + r.val, by omega⟩ : Fin 64) k)
      = Body.outVal (blkOf (Hand.V m c main_arg0) t) (blkOf (Hand.V m c main_arg1) t) (blkOf (Hand.V m c main_arg2) t) (ValueIdx.ix2 r k) := by
  rw [final]
  exact rowsOut_apply _ _ _ t _ (ValueIdx.ix2 r k) rfl rfl

/-- Row r of the block of rows 8t … 8t+7 is row 8t + r of the array. -/
theorem rowOf8_blkOf (x : (⟨3, ![64, 1024, 3]⟩ : Shape).Idx → EReal) (t r : Fin 8) :
    rowOf8 (blkOf (F := Ideal) x t) r = rowOf x (⟨8 * t.val + r.val, by omega⟩ : Fin 64) := by
  funext n d; rfl

end Cert.KernelIdeal.Final

end
-- ==== Proof.KIValue1.lean ====
/-
  The stored block as a composition of a few named steps, at any float instance.

  Every slab of 128 predicted points meets the targets in the same three steps: the table of Gram expansions
  (squared norms of the slab's points plus squared norms of the targets, less twice the inner products), the
  slab's share of the running sum (the clamped roots of the row minima, summed over the slab), and the slab's
  share of the running minimum (the column minima). The body repeats them eight times per predicted cloud, then
  halves the sum of the two averages; the matched-pair average is a separate short chain. This module names the
  steps and shows that the block the body stores is their composition, by unfolding both sides.
-/
import proofs.«117573_j17695265260051_1_alg».proof.Proof.KIBody

noncomputable section

namespace Cert.KernelIdeal.BodyValue

open Idealize.ShloMosaic Idealize.ShloMosaic.TcCoe Idealize.SL.Sem
open Cert.KernelIdeal Cert.KernelIdeal.Gen Cert.KernelIdeal.Body

variable {F : FTy → Type} [FloatOps F]

/-! ## The steps -/

/-- The targets in the narrow format the products are taken in. -/
def narrow (t : Vec F S8x1024x3 .f32) : FVec F S8x1024x3 .bf16 :=
  truncf .bf16 t bitsLt_bf16_f32

/-- The squared norms of the targets: per row and target, the sum over the three coordinates of the squares. -/
def sqNorm (t : Vec F S8x1024x3 .f32) : FVec F S8x1024 .f32 :=
  multiReduction .add [2] S8x1024 (mulf t t) 0x00000000#32 reduces_S8x1024x3_S8x1024 (.inl rfl) rfl

/-- The table of Gram expansions of a slab `a` against the targets (their narrow copy `v1`, their squared norms `v3`):
    at (row, point, target) the point's squared norm plus the target's, less twice their inner product. -/
def slabD2 (v1 : FVec F S8x1024x3 .bf16) (v3 : FVec F S8x1024 .f32) (a : Vec F S8x128x3 .f32) : FVec F S8x128x1024 .f32 :=
  subf
    (addf
      (broadcastTo S8x128x1024
        (shapeCast S8x128x1
          (multiReduction .add [2] S8x128 (mulf a a) 0x00000000#32 reduces_S8x128x3_S8x128 (.inl rfl) rfl)
          shapeCasts_S8x128_S8x128x1)
        broadcasts_S8x128x1_S8x128x1024)
      (broadcastTo S8x128x1024 (shapeCast S8x1x1024 v3 shapeCasts_S8x1024_S8x1x1024) broadcasts_S8x1x1024_S8x128x1024))
    (mulf (broadcast S8x128x1024 (Scalar.ofBits .f32 0x40000000#32))
      (matmul dot_S8x128x3_S8x1024x3_S8x128x1024_2_2_1_1_0_0 none (truncf .bf16 a bitsLt_bf16_f32) v1
        (constant S8x128x1024 .f32 0x00000000#32)))

/-- A slab's share of the first sum: per row, the sum over the slab's points of the clamped root of the point's
    minimum expansion over all targets. -/
def chunkRoots (d2 : FVec F S8x128x1024 .f32) : FVec F S8 .f32 :=
  multiReduction .add [1] S8
    (sqrt (maximumf
      (multiReduction .minimumf [2] S8x128 d2 0x7F800000#32 reduces_S8x128x1024_S8x128 (.inl rfl) rfl)
      (broadcast S8x128 (Scalar.ofBits .f32 0x00000000#32))))
    0x00000000#32 reduces_S8x128_S8 (.inl rfl) rfl

/-- The running sum after one more slab. -/
def stepSum (acc : FVec F S8 .f32) (d2 : FVec F S8x128x1024 .f32) : FVec F S8 .f32 :=
  addf acc (chunkRoots d2)

/-- A slab's minimum expansion against each target: per row and target, the minimum over the slab's points. -/
def colMin (d2 : FVec F S8x128x1024 .f32) : FVec F S8x1024 .f32 :=
  multiReduction .minimumf [1] S8x1024 d2 0x7F800000#32 reduces_S8x128x1024_S8x1024 (.inl rfl) rfl

/-- The running minimum after one more slab. -/
def stepMin (run : FVec F S8x1024 .f32) (d2 : FVec F S8x128x1024 .f32) : FVec F S8x1024 .f32 :=
  minimumf run (colMin d2)

/-- The first sum over the eight slabs of a predicted block, from zero. -/
def sumAll (v1 : FVec F S8x1024x3 .bf16) (v3 : FVec F S8x1024 .f32) (x : Vec F S8x1024x3 .f32) : FVec F S8 .f32 :=
  stepSum (stepSum (stepSum (stepSum (stepSum (stepSum (stepSum (stepSum
    (broadcast S8 (Scalar.ofBits .f32 0x00000000#32))
    (slabD2 v1 v3 (View.ld x rS0))) (slabD2 v1 v3 (View.ld x rS1))) (slabD2 v1 v3 (View.ld x rS2)))
    (slabD2 v1 v3 (View.ld x rS3))) (slabD2 v1 v3 (View.ld x rS4))) (slabD2 v1 v3 (View.ld x rS5)))
    (slabD2 v1 v3 (View.ld x rS6))) (slabD2 v1 v3 (View.ld x rS7))

/-- The running minimum over the eight slabs of a predicted block, from +∞. -/
def minAll (v1 : FVec F S8x1024x3 .bf16) (v3 : FVec F S8x1024 .f32) (x : Vec F S8x1024x3 .f32) : FVec F S8x1024 .f32 :=
  stepMin (stepMin (stepMin (stepMin (stepMin (stepMin (stepMin (stepMin
    (broadcast S8x1024 (Scalar.ofBits .f32 0x7F800000#32))
    (slabD2 v1 v3 (View.ld x rS0))) (slabD2 v1 v3 (View.ld x rS1))) (slabD2 v1 v3 (View.ld x rS2)))
    (slabD2 v1 v3 (View.ld x rS3))) (slabD2 v1 v3 (View.ld x rS4))) (slabD2 v1 v3 (View.ld x rS5)))
    (slabD2 v1 v3 (View.ld x rS6))) (slabD2 v1 v3 (View.ld x rS7))

/-- The symmetric term from the finished sum and the finished running minimum: half the sum of the two averages,
    the second being the average of the clamped roots of the minima. -/
def finish (s : FVec F S8 .f32) (r : FVec F S8x1024 .f32) : FVec F S8 .f32 :=
  mulf (broadcast S8 (Scalar.ofBits .f32 0x3F000000#32))
    (addf (divf s (broadcast S8 (Scalar.ofBits .f32 0x44800000#32)))
      (divf
        (multiReduction .add [1] S8
          (sqrt (maximumf r (broadcast S8x1024 (Scalar.ofBits .f32 0x00000000#32))))
          0x00000000#32 reduces_S8x1024_S8 (.inl rfl) rfl)
        (broadcast S8 (Scalar.ofBits .f32 0x44800000#32))))

/-- The symmetric nearest-neighbour term of a predicted block `x` against the target block `t`, per row. -/
def chamfer (x t : Vec F S8x1024x3 .f32) : FVec F S8 .f32 :=
  finish (sumAll (narrow t) (sqNorm t) x) (minAll (narrow t) (sqNorm t) x)

/-- The matched-pair term of a predicted block `x` against the target block `t`, per row: the average over the
    points of the root of the sum of the squared coordinate differences. -/
def l2 (x t : Vec F S8x1024x3 .f32) : FVec F S8 .f32 :=
  divf
    (multiReduction .add [1] S8
      (sqrt (multiReduction .add [2] S8x1024 (mulf (subf x t) (subf x t)) 0x00000000#32
        reduces_S8x1024x3_S8x1024 (.inl rfl) rfl))
      0x00000000#32 reduces_S8x1024_S8 (.inl rfl) rfl)
    (broadcast S8 (Scalar.ofBits .f32 0x44800000#32))

/-- The four per-row results side by side. -/
def fourCols (c0 c1 c2 c3 : FVec F S8 .f32) : FVec F S8x4 .f32 :=
  concatenate S8x4 1
    [⟨S8x1, shapeCast S8x1 c0 shapeCasts_S8_S8x1⟩, ⟨S8x1, shapeCast S8x1 c1 shapeCasts_S8_S8x1⟩,
     ⟨S8x1, shapeCast S8x1 c2 shapeCasts_S8_S8x1⟩, ⟨S8x1, shapeCast S8x1 c3 shapeCasts_S8_S8x1⟩]
    concatenates_S8x1_S8x1_S8x1_S8x1_S8x4_d1

/-- The stored block: the four columns, then 124 columns of zeros. -/
def padCols (v : FVec F S8x4 .f32) : FVec F S8x128 .f32 :=
  concatenate S8x128 1 [⟨S8x4, v⟩, ⟨S8x124, broadcast S8x124 (Scalar.ofBits .f32 0x00000000#32)⟩]
    concatenates_S8x4_S8x124_S8x128_d1

/-- The stored block from the three input blocks, in the named steps. -/
def outClean (x1 x2 x3 : Vec F S8x1024x3 .f32) : FVec F S8x128 .f32 :=
  padCols (fourCols
    (chamfer x1 (View.ld x3 rAll)) (l2 (View.ld x1 rAll) (View.ld x3 rAll))
    (chamfer x2 (View.ld x3 rAll)) (l2 (View.ld x2 rAll) (View.ld x3 rAll)))

/-! ## The stored block is the composition -/

/-- The payloads, threaded as the body threads them, are the named steps in the same order: both sides are the same
    operations once the names are opened. -/
theorem outVal_eq_outClean (x1 x2 x3 : Vec F S8x1024x3 .f32) : Body.outVal x1 x2 x3 = outClean x1 x2 x3 := rfl

end Cert.KernelIdeal.BodyValue

end
-- ==== Proof.KIValue.lean ====
/-
  The block one grid point stores, read at its four result columns, at the extended reals (every operation exact, the
  format changes the identity).

  The stored block is a composition of named steps (the companion module): for each of the two predicted clouds, the
  eight slabs' tables of Gram expansions feed a running sum and a running minimum, finished into the symmetric term;
  a short chain gives the matched-pair term; the four per-row numbers sit in columns 0 to 3. Here each step is read at an
  index over explicit coordinates (row `b`, point `n` of a slab, target `m`, coordinate `d`):

  * a lane sum over the three coordinates is the `Fin 3` sum; the block product into zero is the inner product of a
    point and a target; the two spread operands read the squared norm of the point and of the target: so the table of
    expansions at (row, point, target) is the Gram expansion `(|a|² + |t|²) - 2·(a·t)`;
  * a minimum reduction over one axis is the fold of `min` from +∞ over that axis's coordinates, so a slab's share of
    the sum is the mathematics' chunk sum and its column minima the chunk minimum;
  * slab `i` of a block at point `n` is the block's point `128·i + n`, and reading a block whole reads the block;
  * the two concatenations read, at column `k < 4`, the `k`-th per-row number.

  Composed, column 0 (resp. 2) of row `b` is the kernel's form of the symmetric term of the first (resp. second)
  cloud's row `b` against the targets' row `b`, and column 1 (resp. 3) the matched-pair term.
-/
import proofs.«117573_j17695265260051_1_alg».proof.Proof.KIValue1
import proofs.«117573_j17695265260051_1_alg».proof.Proof.SpecIdx
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.BodyValue

open Idealize.ShloMosaic Idealize.ShloMosaic.TcCoe Idealize.SL.Sem Idealize.ShloMosaic.ValueIdx
open Cert.KernelIdeal Cert.KernelIdeal.Gen Cert.KernelIdeal.Body Cert.Chamfer

/-! ## The table of Gram expansions at an index -/

/-- A lane sum of a [8,1024,3] vector at (row, point): the sum over the three coordinates. -/
theorem laneSum1024_apply (v : FVec Ideal S8x1024x3 .f32) (b : Fin 8) (m : Fin 1024) :
    multiReduction (F := Ideal) .add [2] S8x1024 v 0x00000000#32 reduces_S8x1024x3_S8x1024 (.inl rfl) rfl (ix2 b m)
      = ∑ d : Fin 3, v (ix3 b m d) := by
  refine (Ideal.multiReduction_add_single v 0x00000000#32 reduces_S8x1024x3_S8x1024 (.inl rfl) rfl (ix2 b m)).trans ?_
  refine Finset.sum_congr rfl fun d _ => congrArg v (funext fun a => Fin.ext ?_)
  match a with
  | ⟨0, _⟩ => rfl
  | ⟨1, _⟩ => rfl
  | ⟨2, _⟩ => rfl

/-- The targets' squared norms at (row, target). -/
theorem sqNorm_apply (t : Vec Ideal S8x1024x3 .f32) (b : Fin 8) (m : Fin 1024) :
    sqNorm (F := Ideal) t (ix2 b m) = Chamfer.sq (fun d => t (ix3 b m d)) := by
  unfold sqNorm Chamfer.sq
  exact laneSum1024_apply _ b m

/-- A lane sum of a [8,128,3] vector at (row, point): the sum over the three coordinates. -/
theorem laneSum128_apply (v : FVec Ideal S8x128x3 .f32) (b : Fin 8) (n : Fin 128) :
    multiReduction (F := Ideal) .add [2] S8x128 v 0x00000000#32 reduces_S8x128x3_S8x128 (.inl rfl) rfl (ix2 b n)
      = ∑ d : Fin 3, v (ix3 b n d) := by
  refine (Ideal.multiReduction_add_single v 0x00000000#32 reduces_S8x128x3_S8x128 (.inl rfl) rfl (ix2 b n)).trans ?_
  refine Finset.sum_congr rfl fun d _ => congrArg v (funext fun a => Fin.ext ?_)
  match a with
  | ⟨0, _⟩ => rfl
  | ⟨1, _⟩ => rfl
  | ⟨2, _⟩ => rfl

/-- A per-(row, point) value spread along the targets reads, at (row, point, target), the value at (row, point). -/
theorem spreadCol_apply (X : FVec Ideal S8x128 .f32) (b : Fin 8) (n : Fin 128) (m : Fin 1024) :
    broadcastTo S8x128x1024 (shapeCast S8x128x1 X shapeCasts_S8x128_S8x128x1) broadcasts_S8x128x1_S8x128x1024 (ix3 b n m)
      = X (ix2 b n) := by
  refine (broadcastTo_apply _ broadcasts_S8x128x1_S8x128x1024 (ix3 b n m) (ix3 b n (0 : Fin 1)) fun a => ?_).trans ?_
  · match a with
    | ⟨0, _⟩ => rfl
    | ⟨1, _⟩ => rfl
    | ⟨2, _⟩ => rfl
  · exact shapeCast_apply X shapeCasts_S8x128_S8x128x1 (ix3 b n (0 : Fin 1)) (ix2 b n) (by
      rw [Shape.rowMajor_val_three, Shape.rowMajor_val_two]
      show b.val * 128 + n.val = (b.val * 128 + n.val) * 1 + 0
      omega)

/-- A per-(row, target) value spread along the points reads, at (row, point, target), the value at (row, target). -/
theorem spreadRow_apply (Y : FVec Ideal S8x1024 .f32) (b : Fin 8) (n : Fin 128) (m : Fin 1024) :
    broadcastTo S8x128x1024 (shapeCast S8x1x1024 Y shapeCasts_S8x1024_S8x1x1024) broadcasts_S8x1x1024_S8x128x1024 (ix3 b n m)
      = Y (ix2 b m) := by
  refine (broadcastTo_apply _ broadcasts_S8x1x1024_S8x128x1024 (ix3 b n m) (ix3 b (0 : Fin 1) m) fun a => ?_).trans ?_
  · match a with
    | ⟨0, _⟩ => rfl
    | ⟨1, _⟩ => rfl
    | ⟨2, _⟩ => rfl
  · exact shapeCast_apply Y shapeCasts_S8x1024_S8x1x1024 (ix3 b (0 : Fin 1) m) (ix2 b m) (by
      rw [Shape.rowMajor_val_three, Shape.rowMajor_val_two]
      show b.val * 1024 + m.val = (b.val * 1 + 0) * 1024 + m.val
      omega)

/-! The block product's operand indices, axis by axis. -/

theorem lhs_dot_0 (i : S8x128x1024.Idx) (q : dot_S8x128x3_S8x1024x3_S8x128x1024_2_2_1_1_0_0.contr.Idx) :
    (dot_S8x128x3_S8x1024x3_S8x128x1024_2_2_1_1_0_0.lhsIdx i q 0).val = (i 0).val := by
  unfold DotDims.lhsIdx
  rw [dif_pos (show (0 : Fin S8x128x3.rank) ∈ dot_S8x128x3_S8x1024x3_S8x128x1024_2_2_1_1_0_0.lhsBatch by decide)]
  rfl
theorem lhs_dot_1 (i : S8x128x1024.Idx) (q : dot_S8x128x3_S8x1024x3_S8x128x1024_2_2_1_1_0_0.contr.Idx) :
    (dot_S8x128x3_S8x1024x3_S8x128x1024_2_2_1_1_0_0.lhsIdx i q 1).val = (i 1).val := by
  unfold DotDims.lhsIdx
  rw [dif_neg (show ¬(1 : Fin S8x128x3.rank) ∈ dot_S8x128x3_S8x1024x3_S8x128x1024_2_2_1_1_0_0.lhsBatch by decide),
    dif_pos (show (1 : Fin S8x128x3.rank) ∈ dot_S8x128x3_S8x1024x3_S8x128x1024_2_2_1_1_0_0.lhsNonContracting by decide)]
  rfl
theorem lhs_dot_2 (i : S8x128x1024.Idx) (q : dot_S8x128x3_S8x1024x3_S8x128x1024_2_2_1_1_0_0.contr.Idx) :
    (dot_S8x128x3_S8x1024x3_S8x128x1024_2_2_1_1_0_0.lhsIdx i q 2).val = (q ⟨0, by decide⟩).val :=
  dot_S8x128x3_S8x1024x3_S8x128x1024_2_2_1_1_0_0.lhsIdx_val_of_single rfl i q
theorem rhs_dot_0 (i : S8x128x1024.Idx) (q : dot_S8x128x3_S8x1024x3_S8x128x1024_2_2_1_1_0_0.contr.Idx) :
    (dot_S8x128x3_S8x1024x3_S8x128x1024_2_2_1_1_0_0.rhsIdx i q 0).val = (i 0).val := by
  unfold DotDims.rhsIdx
  rw [dif_pos (show (0 : Fin S8x1024x3.rank) ∈ dot_S8x128x3_S8x1024x3_S8x128x1024_2_2_1_1_0_0.rhsBatch by decide)]
  rfl
theorem rhs_dot_1 (i : S8x128x1024.Idx) (q : dot_S8x128x3_S8x1024x3_S8x128x1024_2_2_1_1_0_0.contr.Idx) :
    (dot_S8x128x3_S8x1024x3_S8x128x1024_2_2_1_1_0_0.rhsIdx i q 1).val = (i 2).val := by
  unfold DotDims.rhsIdx
  rw [dif_neg (show ¬(1 : Fin S8x1024x3.rank) ∈ dot_S8x128x3_S8x1024x3_S8x128x1024_2_2_1_1_0_0.rhsBatch by decide),
    dif_pos (show (1 : Fin S8x1024x3.rank) ∈ dot_S8x128x3_S8x1024x3_S8x128x1024_2_2_1_1_0_0.rhsNonContracting by decide)]
  rfl
theorem rhs_dot_2 (i : S8x128x1024.Idx) (q : dot_S8x128x3_S8x1024x3_S8x128x1024_2_2_1_1_0_0.contr.Idx) :
    (dot_S8x128x3_S8x1024x3_S8x128x1024_2_2_1_1_0_0.rhsIdx i q 2).val = (q ⟨0, by decide⟩).val :=
  dot_S8x128x3_S8x1024x3_S8x128x1024_2_2_1_1_0_0.rhsIdx_val_of_single rfl i q

/-- The block product into zero at (row, point, target): the inner product of the point and the target. -/
theorem blockDot_apply (l : FVec Ideal S8x128x3 .bf16) (r : FVec Ideal S8x1024x3 .bf16) (b : Fin 8) (n : Fin 128) (m : Fin 1024) :
    matmul (F := Ideal) dot_S8x128x3_S8x1024x3_S8x128x1024_2_2_1_1_0_0 none l r (constant S8x128x1024 .f32 0x00000000#32) (ix3 b n m)
      = ∑ k : Fin 3, l (ix3 b n k) * r (ix3 b m k) := by
  simp only [matmul]
  rw [Ideal.matmul_constant_zero_apply,
    ← Equiv.sum_comp (ValueIdx.contrEquiv1 dot_S8x128x3_S8x1024x3_S8x128x1024_2_2_1_1_0_0 3 rfl rfl).symm]
  refine Finset.sum_congr rfl fun k _ => ?_
  have hk := ValueIdx.contrEquiv1_symm_val dot_S8x128x3_S8x1024x3_S8x128x1024_2_2_1_1_0_0 3 rfl rfl k
  have el : dot_S8x128x3_S8x1024x3_S8x128x1024_2_2_1_1_0_0.lhsIdx (ix3 b n m)
      ((ValueIdx.contrEquiv1 dot_S8x128x3_S8x1024x3_S8x128x1024_2_2_1_1_0_0 3 rfl rfl).symm k) = ix3 b n k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S8x128x3_S8x1024x3_S8x128x1024_2_2_1_1_0_0.rhsIdx (ix3 b n m)
      ((ValueIdx.contrEquiv1 dot_S8x128x3_S8x1024x3_S8x128x1024_2_2_1_1_0_0 3 rfl rfl).symm k) = ix3 b m k :=
    funext fun a => Fin.ext (by
      match a with
      | ⟨0, _⟩ => exact rhs_dot_0 _ _
      | ⟨1, _⟩ => exact rhs_dot_1 _ _
      | ⟨2, _⟩ => exact (rhs_dot_2 _ _).trans hk)
  rw [el, er]

/-- The table of expansions at (row, point, target): the Gram expansion of the slab's point and the target. -/
theorem slabD2_apply (t : Vec Ideal S8x1024x3 .f32) (a : Vec Ideal S8x128x3 .f32) (b : Fin 8) (n : Fin 128) (m : Fin 1024) :
    slabD2 (F := Ideal) (narrow t) (sqNorm t) a (ix3 b n m)
      = gram (fun d => a (ix3 b n d)) (fun d => t (ix3 b m d)) := by
  unfold slabD2 gram
  rw [subf_apply, addf_apply, mulf_apply, spreadCol_apply, spreadRow_apply, laneSum128_apply, sqNorm_apply, blockDot_apply]
  rfl

/-! ## Minimum reductions and the per-slab shares -/

/-- A minimum reduction over one axis, read at the extended reals: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the targets at (row, point). -/
theorem rowMin_apply (d2 : FVec Ideal S8x128x1024 .f32) (b : Fin 8) (n : Fin 128) :
    multiReduction (F := Ideal) .minimumf [2] S8x128 d2 0x7F800000#32 reduces_S8x128x1024_S8x128 (.inl rfl) rfl (ix2 b n)
      = (Finset.univ : Finset (Fin 1024)).fold min cInf (fun m : Fin 1024 => d2 (ix3 b n m)) := by
  refine (multiReduction_minimumf_single d2 _ reduces_S8x128x1024_S8x128 (.inl rfl) rfl (ix2 b n)).trans ?_
  refine congrArg (fun f => (Finset.univ : Finset (Fin 1024)).fold min cInf f) (funext fun m => congrArg d2 (funext fun a => Fin.ext ?_))
  match a with
  | ⟨0, _⟩ => rfl
  | ⟨1, _⟩ => rfl
  | ⟨2, _⟩ => rfl

/-- The minimum over the slab's points at (row, target). -/
theorem colMin_apply (d2 : FVec Ideal S8x128x1024 .f32) (b : Fin 8) (m : Fin 1024) :
    colMin (F := Ideal) d2 (ix2 b m)
      = (Finset.univ : Finset (Fin 128)).fold min cInf (fun n : Fin 128 => d2 (ix3 b n m)) := by
  unfold colMin
  refine (multiReduction_minimumf_single d2 _ reduces_S8x128x1024_S8x1024 (.inl rfl) rfl (ix2 b m)).trans ?_
  refine congrArg (fun f => (Finset.univ : Finset (Fin 128)).fold min cInf f) (funext fun n => congrArg d2 (funext fun a => Fin.ext ?_))
  match a with
  | ⟨0, _⟩ => rfl
  | ⟨1, _⟩ => rfl
  | ⟨2, _⟩ => rfl

theorem clampRoot_apply {s : Shape} (v : FVec Ideal s .f32) (i : s.Idx) :
    sqrt (F := Ideal) (maximumf v (broadcast s (Scalar.ofBits .f32 0x00000000#32))) i = rt (v i) := by
  refine (congrArg Ideal.sqrt (maximumf_apply v _ i)).trans ?_
  unfold rt
  rw [broadcast_apply]
  show Ideal.sqrt (max (v i) (Ideal.ofBits .f32 0x00000000#32)) = _
  rw [Ideal.ofBits_zero_f32]

/-- A slab's share of the first sum at a row: over the slab's points, the clamped root of the minimum over the targets. -/
theorem chunkRoots_apply (d2 : FVec Ideal S8x128x1024 .f32) (b : Fin 8) :
    chunkRoots (F := Ideal) d2 (ix1 b)
      = ∑ n : Fin 128, rt ((Finset.univ : Finset (Fin 1024)).fold min cInf (fun m : Fin 1024 => d2 (ix3 b n m))) := by
  unfold chunkRoots
  refine (Ideal.multiReduction_add_single _ 0x00000000#32 reduces_S8x128_S8 (.inl rfl) rfl (ix1 b)).trans ?_
  refine Finset.sum_congr rfl fun n _ => ?_
  have e : reduces_S8x128_S8.lift (ix1 b) n = ix2 b n := funext fun a => Fin.ext (by
    match a with
    | ⟨0, _⟩ => rfl
    | ⟨1, _⟩ => rfl)
  rw [e]
  exact (clampRoot_apply _ (ix2 b n)).trans (congrArg rt (rowMin_apply d2 b n))

/-! ## The slabs read off a block -/

/-- Reading a block whole reads the block. -/
theorem ld_rAll (x : Vec Ideal S8x1024x3 .f32) : (View.ld x rAll : Vec Ideal S8x1024x3 .f32) = x :=
  funext fun j => congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))

/-- Slab `i` of a block at (row, point `n`, coordinate) is the block's row at point `128·i + n`. -/
theorem ld_rS0 (x : Vec Ideal S8x1024x3 .f32) (b : Fin 8) (n : Fin 128) (d : Fin 3) :
    (View.ld x rS0 : Vec Ideal S8x128x3 .f32) (ix3 b n d) = rowOf8 x b (row 0 n) d :=
  congrArg x (funext fun a => Fin.ext (by
    match a with
    | ⟨0, _⟩ => show 0 + 1 * b.val = b.val; omega
    | ⟨1, _⟩ => show 0 + 1 * n.val = 128 * 0 + n.val; omega
    | ⟨2, _⟩ => show 0 + 1 * d.val = d.val; omega))
theorem ld_rS1 (x : Vec Ideal S8x1024x3 .f32) (b : Fin 8) (n : Fin 128) (d : Fin 3) :
    (View.ld x rS1 : Vec Ideal S8x128x3 .f32) (ix3 b n d) = rowOf8 x b (row 1 n) d :=
  congrArg x (funext fun a => Fin.ext (by
    match a with
    | ⟨0, _⟩ => show 0 + 1 * b.val = b.val; omega
    | ⟨1, _⟩ => show 128 + 1 * n.val = 128 * 1 + n.val; omega
    | ⟨2, _⟩ => show 0 + 1 * d.val = d.val; omega))
theorem ld_rS2 (x : Vec Ideal S8x1024x3 .f32) (b : Fin 8) (n : Fin 128) (d : Fin 3) :
    (View.ld x rS2 : Vec Ideal S8x128x3 .f32) (ix3 b n d) = rowOf8 x b (row 2 n) d :=
  congrArg x (funext fun a => Fin.ext (by
    match a with
    | ⟨0, _⟩ => show 0 + 1 * b.val = b.val; omega
    | ⟨1, _⟩ => show 256 + 1 * n.val = 128 * 2 + n.val; omega
    | ⟨2, _⟩ => show 0 + 1 * d.val = d.val; omega))
theorem ld_rS3 (x : Vec Ideal S8x1024x3 .f32) (b : Fin 8) (n : Fin 128) (d : Fin 3) :
    (View.ld x rS3 : Vec Ideal S8x128x3 .f32) (ix3 b n d) = rowOf8 x b (row 3 n) d :=
  congrArg x (funext fun a => Fin.ext (by
    match a with
    | ⟨0, _⟩ => show 0 + 1 * b.val = b.val; omega
    | ⟨1, _⟩ => show 384 + 1 * n.val = 128 * 3 + n.val; omega
    | ⟨2, _⟩ => show 0 + 1 * d.val = d.val; omega))
theorem ld_rS4 (x : Vec Ideal S8x1024x3 .f32) (b : Fin 8) (n : Fin 128) (d : Fin 3) :
    (View.ld x rS4 : Vec Ideal S8x128x3 .f32) (ix3 b n d) = rowOf8 x b (row 4 n) d :=
  congrArg x (funext fun a => Fin.ext (by
    match a with
    | ⟨0, _⟩ => show 0 + 1 * b.val = b.val; omega
    | ⟨1, _⟩ => show 512 + 1 * n.val = 128 * 4 + n.val; omega
    | ⟨2, _⟩ => show 0 + 1 * d.val = d.val; omega))
theorem ld_rS5 (x : Vec Ideal S8x1024x3 .f32) (b : Fin 8) (n : Fin 128) (d : Fin 3) :
    (View.ld x rS5 : Vec Ideal S8x128x3 .f32) (ix3 b n d) = rowOf8 x b (row 5 n) d :=
  congrArg x (funext fun a => Fin.ext (by
    match a with
    | ⟨0, _⟩ => show 0 + 1 * b.val = b.val; omega
    | ⟨1, _⟩ => show 640 + 1 * n.val = 128 * 5 + n.val; omega
    | ⟨2, _⟩ => show 0 + 1 * d.val = d.val; omega))
theorem ld_rS6 (x : Vec Ideal S8x1024x3 .f32) (b : Fin 8) (n : Fin 128) (d : Fin 3) :
    (View.ld x rS6 : Vec Ideal S8x128x3 .f32) (ix3 b n d) = rowOf8 x b (row 6 n) d :=
  congrArg x (funext fun a => Fin.ext (by
    match a with
    | ⟨0, _⟩ => show 0 + 1 * b.val = b.val; omega
    | ⟨1, _⟩ => show 768 + 1 * n.val = 128 * 6 + n.val; omega
    | ⟨2, _⟩ => show 0 + 1 * d.val = d.val; omega))
theorem ld_rS7 (x : Vec Ideal S8x1024x3 .f32) (b : Fin 8) (n : Fin 128) (d : Fin 3) :
    (View.ld x rS7 : Vec Ideal S8x128x3 .f32) (ix3 b n d) = rowOf8 x b (row 7 n) d :=
  congrArg x (funext fun a => Fin.ext (by
    match a with
    | ⟨0, _⟩ => show 0 + 1 * b.val = b.val; omega
    | ⟨1, _⟩ => show 896 + 1 * n.val = 128 * 7 + n.val; omega
    | ⟨2, _⟩ => show 0 + 1 * d.val = d.val; omega))

/-- A slab's share of the first sum, for a slab whose points are known: the mathematics' chunk sum. -/
theorem chunkRoots_slab (t : Vec Ideal S8x1024x3 .f32) (a : Vec Ideal S8x128x3 .f32) (b : Fin 8) (P : Fin 128 → Fin 3 → EReal)
    (hP : ∀ n d, a (ix3 b n d) = P n d) :
    chunkRoots (F := Ideal) (slabD2 (narrow t) (sqNorm t) a) (ix1 b)
      = ∑ n : Fin 128, rt ((Finset.univ : Finset (Fin 1024)).fold min cInf (fun m : Fin 1024 => gram (P n) (rowOf8 t b m))) := by
  rw [chunkRoots_apply]
  refine Finset.sum_congr rfl fun n _ => congrArg rt (congrArg (fun f => (Finset.univ : Finset (Fin 1024)).fold min cInf f) (funext fun m => ?_))
  rw [slabD2_apply, show (fun d => a (ix3 b n d)) = P n from funext (hP n)]
  rfl

/-- A slab's minimum against a target, for a slab whose points are known: the mathematics' chunk minimum. -/
theorem colMin_slab (t : Vec Ideal S8x1024x3 .f32) (a : Vec Ideal S8x128x3 .f32) (b : Fin 8) (m : Fin 1024) (P : Fin 128 → Fin 3 → EReal)
    (hP : ∀ n d, a (ix3 b n d) = P n d) :
    colMin (F := Ideal) (slabD2 (narrow t) (sqNorm t) a) (ix2 b m)
      = (Finset.univ : Finset (Fin 128)).fold min cInf (fun n : Fin 128 => gram (P n) (rowOf8 t b m)) := by
  rw [colMin_apply]
  refine congrArg (fun f => (Finset.univ : Finset (Fin 128)).fold min cInf f) (funext fun n => ?_)
  rw [slabD2_apply, show (fun d => a (ix3 b n d)) = P n from funext (hP n)]
  rfl

/-! ## The running sum and the running minimum over the eight slabs -/

/-- The running sum starts at zero. -/
theorem zero8_apply (b : Fin 8) : broadcast S8 (Scalar.ofBits (F := Ideal) .f32 0x00000000#32) (ix1 b) = 0 :=
  Ideal.ofBits_zero_f32

/-- One more slab on the running sum, at a row. -/
theorem stepSum_slab (t : Vec Ideal S8x1024x3 .f32) (acc : FVec Ideal S8 .f32) (a : Vec Ideal S8x128x3 .f32) (b : Fin 8)
    (P : Fin 128 → Fin 3 → EReal) (hP : ∀ n d, a (ix3 b n d) = P n d) (A : EReal) (hA : acc (ix1 b) = A) :
    stepSum (F := Ideal) acc (slabD2 (narrow t) (sqNorm t) a) (ix1 b)
      = A + ∑ n : Fin 128, rt ((Finset.univ : Finset (Fin 1024)).fold min cInf (fun m : Fin 1024 => gram (P n) (rowOf8 t b m))) := by
  unfold stepSum
  rw [addf_apply, hA, chunkRoots_slab t a b P hP]

/-- One more slab on the running minimum, at (row, target). -/
theorem stepMin_slab (t : Vec Ideal S8x1024x3 .f32) (run : FVec Ideal S8x1024 .f32) (a : Vec Ideal S8x128x3 .f32) (b : Fin 8)
    (m : Fin 1024) (P : Fin 128 → Fin 3 → EReal) (hP : ∀ n d, a (ix3 b n d) = P n d) (R : EReal) (hR : run (ix2 b m) = R) :
    stepMin (F := Ideal) run (slabD2 (narrow t) (sqNorm t) a) (ix2 b m)
      = min R ((Finset.univ : Finset (Fin 128)).fold min cInf (fun n : Fin 128 => gram (P n) (rowOf8 t b m))) := by
  unfold stepMin
  rw [minimumf_apply, hR, colMin_slab t a b m P hP]

/-- The first sum over a predicted block's eight slabs, at a row: the mathematics' sum, chunk by chunk from zero. -/
theorem sumAll_apply (t x : Vec Ideal S8x1024x3 .f32) (b : Fin 8) :
    sumAll (F := Ideal) (narrow t) (sqNorm t) x (ix1 b) = sumK (rowOf8 x b) (rowOf8 t b) := by
  unfold sumAll sumK chunkSum
  exact stepSum_slab t _ _ b (fun n => rowOf8 x b (row 7 n)) (ld_rS7 x b) _
    (stepSum_slab t _ _ b (fun n => rowOf8 x b (row 6 n)) (ld_rS6 x b) _
    (stepSum_slab t _ _ b (fun n => rowOf8 x b (row 5 n)) (ld_rS5 x b) _
    (stepSum_slab t _ _ b (fun n => rowOf8 x b (row 4 n)) (ld_rS4 x b) _
    (stepSum_slab t _ _ b (fun n => rowOf8 x b (row 3 n)) (ld_rS3 x b) _
    (stepSum_slab t _ _ b (fun n => rowOf8 x b (row 2 n)) (ld_rS2 x b) _
    (stepSum_slab t _ _ b (fun n => rowOf8 x b (row 1 n)) (ld_rS1 x b) _
    (stepSum_slab t _ _ b (fun n => rowOf8 x b (row 0 n)) (ld_rS0 x b) 0 (zero8_apply b))))))))

/-- The running minimum over a predicted block's eight slabs, at (row, target): the mathematics' running minimum,
    chunk by chunk from +∞. -/
theorem minAll_apply (t x : Vec Ideal S8x1024x3 .f32) (b : Fin 8) (m : Fin 1024) :
    minAll (F := Ideal) (narrow t) (sqNorm t) x (ix2 b m) = runK (rowOf8 x b) (rowOf8 t b) m := by
  unfold minAll runK chunkMin
  exact stepMin_slab t _ _ b m (fun n => rowOf8 x b (row 7 n)) (ld_rS7 x b) _
    (stepMin_slab t _ _ b m (fun n => rowOf8 x b (row 6 n)) (ld_rS6 x b) _
    (stepMin_slab t _ _ b m (fun n => rowOf8 x b (row 5 n)) (ld_rS5 x b) _
    (stepMin_slab t _ _ b m (fun n => rowOf8 x b (row 4 n)) (ld_rS4 x b) _
    (stepMin_slab t _ _ b m (fun n => rowOf8 x b (row 3 n)) (ld_rS3 x b) _
    (stepMin_slab t _ _ b m (fun n => rowOf8 x b (row 2 n)) (ld_rS2 x b) _
    (stepMin_slab t _ _ b m (fun n => rowOf8 x b (row 1 n)) (ld_rS1 x b) _
    (stepMin_slab t _ _ b m (fun n => rowOf8 x b (row 0 n)) (ld_rS0 x b) cInf rfl)))))))

/-! ## The two per-row terms -/

/-- A sum over the 1024 slots of a [8,1024] vector at a row. -/
theorem rowSum1024_apply (v : FVec Ideal S8x1024 .f32) (b : Fin 8) :
    multiReduction (F := Ideal) .add [1] S8 v 0x00000000#32 reduces_S8x1024_S8 (.inl rfl) rfl (ix1 b)
      = ∑ m : Fin 1024, v (ix2 b m) := by
  refine (Ideal.multiReduction_add_single v 0x00000000#32 reduces_S8x1024_S8 (.inl rfl) rfl (ix1 b)).trans ?_
  refine Finset.sum_congr rfl fun m _ => congrArg v (funext fun a => Fin.ext ?_)
  match a with
  | ⟨0, _⟩ => rfl
  | ⟨1, _⟩ => rfl

/-- The symmetric term from a finished sum and a finished running minimum, at a row. -/
theorem finish_apply (s : FVec Ideal S8 .f32) (r : FVec Ideal S8x1024 .f32) (b : Fin 8) :
    finish (F := Ideal) s r (ix1 b)
      = cHalf * (Ideal.div (s (ix1 b)) c1024 + Ideal.div (∑ m : Fin 1024, rt (r (ix2 b m))) c1024) := by
  unfold finish
  rw [mulf_apply, addf_apply, divf_apply, divf_apply]
  refine congrArg (fun z => cHalf * (Ideal.div (s (ix1 b)) c1024 + Ideal.div z c1024)) ?_
  exact (rowSum1024_apply _ b).trans (Finset.sum_congr rfl fun m _ => clampRoot_apply r (ix2 b m))

/-- The symmetric nearest-neighbour term of a predicted block against the target block, at a row. -/
theorem chamfer_apply (x t : Vec Ideal S8x1024x3 .f32) (b : Fin 8) :
    chamfer (F := Ideal) x t (ix1 b) = symK (rowOf8 x b) (rowOf8 t b) := by
  unfold chamfer symK
  rw [finish_apply, sumAll_apply]
  exact congrArg (fun z => cHalf * (Ideal.div (sumK (rowOf8 x b) (rowOf8 t b)) c1024 + Ideal.div z c1024))
    (Finset.sum_congr rfl fun m _ => congrArg rt (minAll_apply t x b m))

/-- The matched-pair term of a predicted block against the target block, at a row. -/
theorem l2_apply (x t : Vec Ideal S8x1024x3 .f32) (b : Fin 8) :
    l2 (F := Ideal) x t (ix1 b) = asym (rowOf8 x b) (rowOf8 t b) := by
  unfold l2 asym
  rw [divf_apply]
  refine congrArg (fun z => Ideal.div z c1024) ?_
  refine (rowSum1024_apply _ b).trans (Finset.sum_congr rfl fun n _ => ?_)
  exact congrArg Ideal.sqrt (laneSum1024_apply _ b n)

/-! ## The stored block's first four columns -/

/-- A per-row value as a one-column block reads the value. -/
theorem col_cast_apply (c : FVec Ideal S8 .f32) (b : Fin 8) :
    shapeCast S8x1 c shapeCasts_S8_S8x1 (ix2 b (0 : Fin 1)) = c (ix1 b) :=
  shapeCast_apply c shapeCasts_S8_S8x1 (ix2 b (0 : Fin 1)) (ix1 b) (by
    rw [Shape.rowMajor_val_one, Shape.rowMajor_val_two]
    show b.val = b.val * 1 + 0
    omega)

theorem fourCols_apply0 (c0 c1 c2 c3 : FVec Ideal S8 .f32) (b : Fin 8) :
    fourCols c0 c1 c2 c3 (ix2 b (0 : Fin 4)) = c0 (ix1 b) := by
  unfold fourCols
  refine Eq.trans ?_ (col_cast_apply c0 b)
  exact concatenate_apply_piece _ _ _ (ix2 b (0 : Fin 4)) 0 (by show 0 < 4; omega) S8x1 _ rfl rfl 0 rfl
    (ix2 b (0 : Fin 1)) (fun a ha => by
      match a, ha with
      | ⟨0, _⟩, _ => rfl
      | ⟨1, _⟩, h => exact absurd rfl h) rfl

theorem fourCols_apply1 (c0 c1 c2 c3 : FVec Ideal S8 .f32) (b : Fin 8) :
    fourCols c0 c1 c2 c3 (ix2 b (1 : Fin 4)) = c1 (ix1 b) := by
  unfold fourCols
  refine Eq.trans ?_ (col_cast_apply c1 b)
  exact concatenate_apply_piece _ _ _ (ix2 b (1 : Fin 4)) 1 (by show 1 < 4; omega) S8x1 _ rfl rfl 1 rfl
    (ix2 b (0 : Fin 1)) (fun a ha => by
      match a, ha with
      | ⟨0, _⟩, _ => rfl
      | ⟨1, _⟩, h => exact absurd rfl h) rfl

theorem fourCols_apply2 (c0 c1 c2 c3 : FVec Ideal S8 .f32) (b : Fin 8) :
    fourCols c0 c1 c2 c3 (ix2 b (2 : Fin 4)) = c2 (ix1 b) := by
  unfold fourCols
  refine Eq.trans ?_ (col_cast_apply c2 b)
  exact concatenate_apply_piece _ _ _ (ix2 b (2 : Fin 4)) 2 (by show 2 < 4; omega) S8x1 _ rfl rfl 2 rfl
    (ix2 b (0 : Fin 1)) (fun a ha => by
      match a, ha with
      | ⟨0, _⟩, _ => rfl
      | ⟨1, _⟩, h => exact absurd rfl h) rfl

theorem fourCols_apply3 (c0 c1 c2 c3 : FVec Ideal S8 .f32) (b : Fin 8) :
    fourCols c0 c1 c2 c3 (ix2 b (3 : Fin 4)) = c3 (ix1 b) := by
  unfold fourCols
  refine Eq.trans ?_ (col_cast_apply c3 b)
  exact concatenate_apply_piece _ _ _ (ix2 b (3 : Fin 4)) 3 (by show 3 < 4; omega) S8x1 _ rfl rfl 3 rfl
    (ix2 b (0 : Fin 1)) (fun a ha => by
      match a, ha with
      | ⟨0, _⟩, _ => rfl
      | ⟨1, _⟩, h => exact absurd rfl h) rfl

/-- The padded block at one of its first four columns reads the four-column block there. -/
theorem padCols_apply (v : FVec Ideal S8x4 .f32) (b : Fin 8) (k : Fin 4) (k' : Fin 128) (hk : k'.val = k.val) :
    padCols v (ix2 b k') = v (ix2 b k) := by
  unfold padCols
  exact concatenate_pair_apply_left _ v _ concatenates_S8x4_S8x124_S8x128_d1 (ix2 b k') rfl (ix2 b k) (fun a => by
    match a with
    | ⟨0, _⟩ => rfl
    | ⟨1, _⟩ => exact hk.symm)

/-! ## The stored block at its four result columns -/

theorem outVal_sym1 (x1 x2 x3 : Vec Ideal S8x1024x3 .f32) (b : Fin 8) :
    Body.outVal (F := Ideal) x1 x2 x3 (ValueIdx.ix2 b (0 : Fin 128)) = symK (rowOf8 x1 b) (rowOf8 x3 b) := by
  rw [outVal_eq_outClean]
  unfold outClean
  rw [ld_rAll x3, ld_rAll x1, ld_rAll x2]
  exact (padCols_apply _ b 0 0 rfl).trans ((fourCols_apply0 _ _ _ _ b).trans (chamfer_apply x1 x3 b))

theorem outVal_asym1 (x1 x2 x3 : Vec Ideal S8x1024x3 .f32) (b : Fin 8) :
    Body.outVal (F := Ideal) x1 x2 x3 (ValueIdx.ix2 b (1 : Fin 128)) = asym (rowOf8 x1 b) (rowOf8 x3 b) := by
  rw [outVal_eq_outClean]
  unfold outClean
  rw [ld_rAll x3, ld_rAll x1, ld_rAll x2]
  exact (padCols_apply _ b 1 1 rfl).trans ((fourCols_apply1 _ _ _ _ b).trans (l2_apply x1 x3 b))

theorem outVal_sym2 (x1 x2 x3 : Vec Ideal S8x1024x3 .f32) (b : Fin 8) :
    Body.outVal (F := Ideal) x1 x2 x3 (ValueIdx.ix2 b (2 : Fin 128)) = symK (rowOf8 x2 b) (rowOf8 x3 b) := by
  rw [outVal_eq_outClean]
  unfold outClean
  rw [ld_rAll x3, ld_rAll x1, ld_rAll x2]
  exact (padCols_apply _ b 2 2 rfl).trans ((fourCols_apply2 _ _ _ _ b).trans (chamfer_apply x2 x3 b))

theorem outVal_asym2 (x1 x2 x3 : Vec Ideal S8x1024x3 .f32) (b : Fin 8) :
    Body.outVal (F := Ideal) x1 x2 x3 (ValueIdx.ix2 b (3 : Fin 128)) = asym (rowOf8 x2 b) (rowOf8 x3 b) := by
  rw [outVal_eq_outClean]
  unfold outClean
  rw [ld_rAll x3, ld_rAll x1, ld_rAll x2]
  exact (padCols_apply _ b 3 3 rfl).trans ((fourCols_apply3 _ _ _ _ b).trans (l2_apply x2 x3 b))

end Cert.KernelIdeal.BodyValue

end
-- ==== Proof.SpecLaw.lean ====
/-
  The two spellings of the symmetric term agree, for arbitrary clouds of extended reals (no finiteness is used).

  The literals are +∞, the real 1/2 and the real 1024, so the divisions are products with the real 1/1024. The clamped
  root is monotone and fixes +∞, hence passes through every minimum taken from +∞. A minimum over the 1024 slots is the
  minimum of the eight minima over the chunks of 128, and a sum over the 1024 slots is the sum of the eight chunk sums,
  because every slot is point `128·i + n` of exactly one chunk. What is left is algebra with two non-negative real
  factors, over which the extended reals distribute whatever the summands are.
-/
import proofs.«117573_j17695265260051_1_alg».proof.Proof.Spec
import Mathlib.Data.EReal.Operations
import Mathlib.Data.EReal.Inv
import Mathlib.Data.Finset.Fold
import Mathlib.Data.Fintype.BigOperators
import Mathlib.Data.Fintype.EquivFin
import Mathlib.Algebra.BigOperators.Fin
import Mathlib.Algebra.BigOperators.Group.Finset.Basic
import Mathlib.Analysis.SpecialFunctions.Pow.Real

noncomputable section

namespace Cert.Chamfer

open Idealize.ShloMosaic

/-! ## The literals -/

theorem cInf_eq : cInf = ⊤ := by
  simp [cInf, Ideal.ofBits, Ideal.ieee]

theorem cHalf_eq : cHalf = (((1 / 2 : ℝ)) : EReal) := by
  simp [cHalf, Ideal.ofBits, Ideal.ieee, -EReal.coe_mul]; norm_num

theorem c1024_eq : c1024 = ((1024 : ℝ) : EReal) := by
  simp [c1024, Ideal.ofBits, Ideal.ieee, -EReal.coe_mul]; norm_num

/-- Averaging over the 1024 slots is the product with the real `1/1024`, at every extended real. -/
theorem div_c1024 (x : EReal) : Ideal.div x c1024 = x * (((1 / 1024 : ℝ)) : EReal) := by
  rw [c1024_eq, Ideal.div_coe (by norm_num)]

/-! ## The clamped root -/

/-- The root is monotone on all the extended reals: junk `⊥` below zero, the real root from zero on, `⊤` at `⊤`. -/
theorem sqrt_mono : Monotone Ideal.sqrt := by
  intro x y h
  induction x using EReal.rec with
  | bot => simp
  | top =>
    have hy : y = ⊤ := top_le_iff.mp h
    simp [hy]
  | coe r =>
    induction y using EReal.rec with
    | bot => exact absurd h (by simp)
    | top => simp
    | coe s =>
      have hrs : r ≤ s := EReal.coe_le_coe_iff.mp h
      simp only [Ideal.sqrt_coe]
      split_ifs with h1 h2
      · exact le_rfl
      · exact bot_le
      · exfalso; linarith
      · exact EReal.coe_le_coe_iff.mpr (Real.sqrt_le_sqrt hrs)

theorem rt_mono : Monotone rt := fun _ _ h => sqrt_mono (max_le_max h le_rfl)

theorem rt_top : rt ⊤ = ⊤ := by
  simp [rt]

/-- The clamped root passes through a minimum taken from `+∞`. -/
theorem rt_fold_min {ι : Type*} (s : Finset ι) (f : ι → EReal) :
    rt (s.fold min cInf f) = s.fold min cInf (fun x => rt (f x)) := by
  have h := Finset.fold_hom (op := min) (op' := min) (s := s) (b := cInf) (f := f) (m := rt)
    (fun x y => rt_mono.map_min)
  rw [← h, cInf_eq, rt_top]

/-! ## Regrouping the 1024 slots into eight chunks of 128 -/

/-- Every slot is point `n` of chunk `i` for some `i`, `n`. -/
theorem row_surj (k : Fin 1024) : ∃ i n, row i n = k :=
  ⟨⟨k.val / 128, by omega⟩, ⟨k.val % 128, Nat.mod_lt _ (by norm_num)⟩, by
    apply Fin.ext; simp only [row]; omega⟩

theorem row_inj {i i' : Fin 8} {n n' : Fin 128} (h : row i n = row i' n') : i = i' ∧ n = n' := by
  have h' := congrArg Fin.val h
  simp only [row] at h'
  exact ⟨Fin.ext (by omega), Fin.ext (by omega)⟩

/-- The minimum from `+∞` of eight values, as the kernel folds it, is below a bound exactly when each value is. -/
theorem le_min8 (c : Fin 8 → EReal) (x : EReal) :
    x ≤ min (min (min (min (min (min (min (min cInf (c 0)) (c 1)) (c 2)) (c 3)) (c 4)) (c 5)) (c 6)) (c 7)
      ↔ ∀ i, x ≤ c i := by
  simp only [le_min_iff, cInf_eq, le_top, true_and]
  constructor
  · rintro ⟨⟨⟨⟨⟨⟨⟨h0, h1⟩, h2⟩, h3⟩, h4⟩, h5⟩, h6⟩, h7⟩ i
    fin_cases i
    exacts [h0, h1, h2, h3, h4, h5, h6, h7]
  · intro h
    exact ⟨⟨⟨⟨⟨⟨⟨h 0, h 1⟩, h 2⟩, h 3⟩, h 4⟩, h 5⟩, h 6⟩, h 7⟩

/-- A minimum from `+∞` over the 1024 slots is the kernel's running minimum of the eight chunk minima. -/
theorem fold_min_regroup (g : Fin 1024 → EReal) :
    min (min (min (min (min (min (min (min cInf
      (Finset.univ.fold min cInf (fun n : Fin 128 => g (row 0 n))))
      (Finset.univ.fold min cInf (fun n : Fin 128 => g (row 1 n))))
      (Finset.univ.fold min cInf (fun n : Fin 128 => g (row 2 n))))
      (Finset.univ.fold min cInf (fun n : Fin 128 => g (row 3 n))))
      (Finset.univ.fold min cInf (fun n : Fin 128 => g (row 4 n))))
      (Finset.univ.fold min cInf (fun n : Fin 128 => g (row 5 n))))
      (Finset.univ.fold min cInf (fun n : Fin 128 => g (row 6 n))))
      (Finset.univ.fold min cInf (fun n : Fin 128 => g (row 7 n)))
    = Finset.univ.fold min cInf g := by
  apply eq_of_forall_le_iff
  intro x
  rw [le_min8 (fun i => Finset.univ.fold min cInf (fun n : Fin 128 => g (row i n))) x]
  simp only [Finset.le_fold_min, cInf_eq, le_top, true_and, Finset.mem_univ, forall_true_left]
  constructor
  · intro h k
    obtain ⟨i, n, rfl⟩ := row_surj k
    exact h i n
  · intro h i n
    exact h (row i n)

/-- A sum over the 1024 slots is the sum over the eight chunks of the chunk sums. -/
theorem sum_regroup (u : Fin 1024 → EReal) :
    ∑ i : Fin 8, ∑ n : Fin 128, u (row i n) = ∑ k : Fin 1024, u k := by
  have hbij : Function.Bijective (fun p : Fin 8 × Fin 128 => row p.1 p.2) := by
    rw [Fintype.bijective_iff_injective_and_card]
    refine ⟨?_, by simp⟩
    rintro ⟨i, n⟩ ⟨i', n'⟩ h
    obtain ⟨h1, h2⟩ := row_inj h
    exact Prod.ext h1 h2
  rw [← hbij.sum_comp u, Fintype.sum_prod_type]

/-! ## The two terms of the kernel, in the reference's quantities -/

theorem rt_runK (P T : Pts) (m : Fin 1024) : rt (runK P T m) = nearP P T m := by
  have h := fold_min_regroup (fun n => gram (P n) (T m))
  simp only [runK, chunkMin, nearP]
  rw [h, rt_fold_min]

theorem chunkSum_eq (P T : Pts) (i : Fin 8) : chunkSum P T i = ∑ n : Fin 128, nearT P T (row i n) := by
  simp only [chunkSum, nearT, rt_fold_min]

theorem sumK_eq (P T : Pts) : sumK P T = ∑ n : Fin 1024, nearT P T n := by
  rw [← sum_regroup, Fin.sum_univ_eight]
  simp only [sumK, zero_add, chunkSum_eq]

/-! ## The algebra -/

/-- A non-negative real factor distributes over any finite sum of extended reals. -/
theorem coe_mul_sum {ι : Type*} (s : Finset ι) (f : ι → EReal) (c : ℝ) (hc : 0 ≤ c) :
    (c : EReal) * ∑ x ∈ s, f x = ∑ x ∈ s, (c : EReal) * f x := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem symK_eq_symR (P T : Pts) : symK P T = symR P T := by
  have hh : (0 : ℝ) ≤ 1 / 2 := by norm_num
  have hc : (0 : EReal) ≤ ((1 / 1024 : ℝ) : EReal) := EReal.coe_nonneg.mpr (by norm_num)
  simp only [symK, symR, div_c1024, sumK_eq, rt_runK, cHalf_eq]
  rw [← coe_mul_sum _ _ _ hh, Finset.sum_add_distrib,
    ← EReal.right_distrib_of_nonneg_of_ne_top hc (EReal.coe_ne_top _), mul_assoc]

end Cert.Chamfer

end
-- ==== Proof.RefRead.lean ====
/-
  The reference program's four per-row quantities, read at a batch row: for each of the two predicted clouds, the
  symmetric nearest-neighbour term and the plain matched-pair term, as the mathematics of one row states them.

  Every stage of the reference is read at an index from its operands. The squared norms, the inner products, the Gram
  expansion, the clamp and the root are elementwise; the two minima are folds of `min` from +∞ over the coordinates of the
  reduced axis; the sums are sums over the coordinates of the summed axis, from zero.
-/
import proofs.«117573_j17695265260051_1_alg».proof.Proof.ReadP
import proofs.«117573_j17695265260051_1_alg».proof.Proof.SpecIdx
import Idealize.ShloMosaic.Lib.ValueIdx
import Idealize.ShloMosaic.PureOps.Ideal.Laws
import Idealize.ShloMosaic.PureOps.Reduce

noncomputable section

namespace Cert.ReferenceIdeal.RefRead

open Idealize.ShloMosaic Cert.Chamfer Cert.ReferenceIdeal Cert.ReferenceIdeal.Read

/-- An array of 64 clouds at the ideal values. -/
abbrev Arr := (⟨S64x1024x3, .f32⟩ : BufTy).Contents (Elt Ideal)

/-! ## The first cloud -/

/-- The squared norms of the predicted points. -/
theorem v1_at (x0 : Arr) (b : Fin 64) (n : Fin 1024) :
    val_main_v1 (F := Ideal) x0 (ValueIdx.ix2 b n) = Chamfer.sq (rowOf x0 b n) := by
  rw [val_main_v1_apply]
  have e : ∀ k : Fin 3, idx_main_v1 (ValueIdx.ix2 b n) k = ValueIdx.ix3 b n k := fun k =>
    funext fun a => Fin.ext (by match a with | ⟨0, _⟩ => rfl | ⟨1, _⟩ => rfl | ⟨2, _⟩ => rfl)
  simp only [val_main_cst_apply, val_main_v0_apply, Ideal.ofBits_def, Ideal.ofBits_zero_f32, zero_add, Ideal.mulf_def, e]
  rfl

/-- The squared norms of the targets. -/
theorem v4_at (x2 : Arr) (b : Fin 64) (m : Fin 1024) :
    val_main_v4 (F := Ideal) x2 (ValueIdx.ix2 b m) = Chamfer.sq (rowOf x2 b m) := by
  rw [val_main_v4_apply]
  have e : ∀ k : Fin 3, idx_main_v4 (ValueIdx.ix2 b m) k = ValueIdx.ix3 b m k := fun k =>
    funext fun a => Fin.ext (by match a with | ⟨0, _⟩ => rfl | ⟨1, _⟩ => rfl | ⟨2, _⟩ => rfl)
  simp only [val_main_cst_0_apply, val_main_v3_apply, Ideal.ofBits_def, Ideal.ofBits_zero_f32, zero_add, Ideal.mulf_def, e]
  rfl

/-- The predicted points' squared norms, spread over the targets. -/
theorem v6_at (x0 : Arr) (b : Fin 64) (n m : Fin 1024) :
    val_main_v6 (F := Ideal) x0 (ValueIdx.ix3 b n m) = Chamfer.sq (rowOf x0 b n) := by
  rw [val_main_v6_apply, val_main_v2_apply, ← v1_at x0 b n]
  exact congrArg _ (funext fun a => Fin.ext (by match a with | ⟨0, _⟩ => rfl | ⟨1, _⟩ => rfl))

/-- The targets' squared norms, spread over the predicted points. -/
theorem v7_at (x2 : Arr) (b : Fin 64) (n m : Fin 1024) :
    val_main_v7 (F := Ideal) x2 (ValueIdx.ix3 b n m) = Chamfer.sq (rowOf x2 b m) := by
  rw [val_main_v7_apply, val_main_v5_apply, ← v4_at x2 b m]
  exact congrArg _ (funext fun a => Fin.ext (by match a with | ⟨0, _⟩ => rfl | ⟨1, _⟩ => rfl))

/-- The inner products of predicted points and targets. -/
theorem v9_at (x0 x2 : Arr) (b : Fin 64) (n m : Fin 1024) :
    val_main_v9 (F := Ideal) x0 x2 (ValueIdx.ix3 b n m) = dot (rowOf x0 b n) (rowOf x2 b m) := by
  rw [val_main_v9_apply]
  have el : ∀ k : Fin 3, lidx_main_v9 (ValueIdx.ix3 b n m) k = ValueIdx.ix3 b n k := fun k =>
    funext fun a => Fin.ext (by match a with | ⟨0, _⟩ => rfl | ⟨1, _⟩ => rfl | ⟨2, _⟩ => rfl)
  have er : ∀ k : Fin 3, ridx_main_v9 (ValueIdx.ix3 b n m) k = ValueIdx.ix3 b m k := fun k =>
    funext fun a => Fin.ext (by match a with | ⟨0, _⟩ => rfl | ⟨1, _⟩ => rfl | ⟨2, _⟩ => rfl)
  simp only [el, er]
  rfl

/-- The distance of predicted point `n` and target `m`: the Gram expansion, clamped and rooted. -/
theorem v15_at (x0 x2 : Arr) (b : Fin 64) (n m : Fin 1024) :
    val_main_v15 (F := Ideal) x0 x2 (ValueIdx.ix3 b n m) = rt (gram (rowOf x0 b n) (rowOf x2 b m)) := by
  rw [val_main_v15_apply, val_main_v14_apply, val_main_v12_apply, val_main_v8_apply, val_main_v11_apply, val_main_v10_apply,
    val_main_v13_apply, val_main_cst_1_apply, val_main_cst_2_apply, v6_at, v7_at, v9_at]
  simp only [Ideal.hostUnary_sqrt_def, Ideal.maximumf_def, Ideal.subf_def, Ideal.addf_def, Ideal.mulf_def, Ideal.ofBits_def,
    Ideal.ofBits_zero_f32]
  rfl

/-! The two minima: each a fold of `min` from +∞ over the reduced axis's coordinates. -/

/-- A minimum over the targets (the last axis), read at a row and a predicted point. -/
theorem minLast_at (y : S64x1024x1024.Idx → EReal) (init : S_.Idx → EReal) (g : Fin 1024 → EReal) (c : EReal)
    (b : Fin 64) (n : Fin 1024) (hy : ∀ m : Fin 1024, y (ValueIdx.ix3 b n m) = g m) (hc : ∀ i, init i = c) :
    Host.reduce (FloatOps.minimumf (F := Ideal) (φ := .f32)) y init Gen.reducesTo_S64x1024x1024_S64x1024_d2 Gen.h_S_ (ValueIdx.ix2 b n)
      = Finset.univ.fold min c g := by
  rw [Host.reduce_eq_fold_single _ y init Gen.reducesTo_S64x1024x1024_S64x1024_d2 (by decide) Gen.h_S_ (ValueIdx.ix2 b n), hc]
  refine Finset.fold_congr fun m _ => ?_
  rw [← hy m]
  exact congrArg y (funext fun a => Fin.ext (by match a with | ⟨0, _⟩ => rfl | ⟨1, _⟩ => rfl | ⟨2, _⟩ => rfl))

/-- A minimum over the predicted points (the middle axis), read at a row and a target. -/
theorem minMid_at (y : S64x1024x1024.Idx → EReal) (init : S_.Idx → EReal) (g : Fin 1024 → EReal) (c : EReal)
    (b : Fin 64) (m : Fin 1024) (hy : ∀ n : Fin 1024, y (ValueIdx.ix3 b n m) = g n) (hc : ∀ i, init i = c) :
    Host.reduce (FloatOps.minimumf (F := Ideal) (φ := .f32)) y init Gen.reducesTo_S64x1024x1024_S64x1024_d1 Gen.h_S_ (ValueIdx.ix2 b m)
      = Finset.univ.fold min c g := by
  rw [Host.reduce_eq_fold_single _ y init Gen.reducesTo_S64x1024x1024_S64x1024_d1 (by decide) Gen.h_S_ (ValueIdx.ix2 b m), hc]
  refine Finset.fold_congr fun n _ => ?_
  rw [← hy n]
  exact congrArg y (funext fun a => Fin.ext (by match a with | ⟨0, _⟩ => rfl | ⟨1, _⟩ => rfl | ⟨2, _⟩ => rfl))

/-- The distance from predicted point `n` to its nearest target. -/
theorem v16_at (x0 x2 : Arr) (b : Fin 64) (n : Fin 1024) :
    val_main_v16 (F := Ideal) x0 x2 (ValueIdx.ix2 b n) = nearT (rowOf x0 b) (rowOf x2 b) n := by
  unfold val_main_v16 nearT
  exact minLast_at _ _ _ _ b n (fun m => v15_at x0 x2 b n m) (fun i => val_main_cst_3_apply i)

/-- The distance from target `m` to its nearest predicted point. -/
theorem v17_at (x0 x2 : Arr) (b : Fin 64) (m : Fin 1024) :
    val_main_v17 (F := Ideal) x0 x2 (ValueIdx.ix2 b m) = nearP (rowOf x0 b) (rowOf x2 b) m := by
  unfold val_main_v17 nearP
  exact minMid_at _ _ _ _ b m (fun n => v15_at x0 x2 b n m) (fun i => val_main_cst_4_apply i)

/-- Slot by slot, half the sum of the two nearest distances. -/
theorem v20_at (x0 x2 : Arr) (b : Fin 64) (n : Fin 1024) :
    val_main_v20 (F := Ideal) x0 x2 (ValueIdx.ix2 b n)
      = cHalf * (nearT (rowOf x0 b) (rowOf x2 b) n + nearP (rowOf x0 b) (rowOf x2 b) n) := by
  rw [val_main_v20_apply, val_main_v19_apply, val_main_cst_5_apply, val_main_v18_apply, v16_at, v17_at]
  rfl

/-- The symmetric term of the first cloud at row `b`. -/
theorem sym1_apply (x0 x2 : (⟨S64x1024x3, .f32⟩ : BufTy).Contents (Elt Ideal)) (b : Fin 64) :
    val_main_v23 (F := Ideal) x0 x2 (ValueIdx.ix1 b) = symR (rowOf x0 b) (rowOf x2 b) := by
  rw [val_main_v23_apply, val_main_v21_apply, val_main_v22_apply, val_main_cst_6_apply, val_main_cst_7_apply]
  have e : ∀ k : Fin 1024, idx_main_v21 (ValueIdx.ix1 b) k = ValueIdx.ix2 b k := fun k =>
    funext fun a => Fin.ext (by match a with | ⟨0, _⟩ => rfl | ⟨1, _⟩ => rfl)
  simp only [e, v20_at, Ideal.hostDivf_def, Ideal.ofBits_def, Ideal.ofBits_zero_f32, zero_add]
  rfl

/-- The distance of the matched pair `n`: the root of the sum of the squared coordinate differences. -/
theorem v25_at (x0 x2 : Arr) (b : Fin 64) (n : Fin 1024) :
    val_main_v25 (F := Ideal) x0 x2 (ValueIdx.ix2 b n)
      = Ideal.sqrt (∑ d : Fin 3, (rowOf x0 b n d - rowOf x2 b n d) * (rowOf x0 b n d - rowOf x2 b n d)) := by
  rw [val_main_v25_apply, val_main_call0_v1_apply, val_main_call0_cst_apply]
  have e : ∀ k : Fin 3, idx_main_call0_v1 (ValueIdx.ix2 b n) k = ValueIdx.ix3 b n k := fun k =>
    funext fun a => Fin.ext (by match a with | ⟨0, _⟩ => rfl | ⟨1, _⟩ => rfl | ⟨2, _⟩ => rfl)
  simp only [e, val_main_call0_v0_apply, val_main_v24_apply, Ideal.hostUnary_sqrt_def, Ideal.ofBits_def, Ideal.ofBits_zero_f32,
    zero_add, Ideal.mulf_def, Ideal.subf_def]
  rfl

/-- The plain term of the first cloud at row `b`. -/
theorem asym1_apply (x0 x2 : (⟨S64x1024x3, .f32⟩ : BufTy).Contents (Elt Ideal)) (b : Fin 64) :
    val_main_v28 (F := Ideal) x0 x2 (ValueIdx.ix1 b) = asym (rowOf x0 b) (rowOf x2 b) := by
  rw [val_main_v28_apply, val_main_v26_apply, val_main_v27_apply, val_main_cst_8_apply, val_main_cst_9_apply]
  have e : ∀ k : Fin 1024, idx_main_v26 (ValueIdx.ix1 b) k = ValueIdx.ix2 b k := fun k =>
    funext fun a => Fin.ext (by match a with | ⟨0, _⟩ => rfl | ⟨1, _⟩ => rfl)
  simp only [e, v25_at, Ideal.hostDivf_def, Ideal.ofBits_def, Ideal.ofBits_zero_f32, zero_add]
  rfl

/-! ## The second cloud

The second predicted cloud passes through the same operations as the first, in the same order, against the same
targets: each of its stages is the first cloud's stage at the second array. -/

/-- The second cloud's symmetric stage is the first's at the second array. -/
theorem v58_eq_v23 (x1 x2 : Arr) : val_main_v58 (F := Ideal) x1 x2 = val_main_v23 (F := Ideal) x1 x2 := rfl

/-- The second cloud's plain stage is the first's at the second array. -/
theorem v63_eq_v28 (x1 x2 : Arr) : val_main_v63 (F := Ideal) x1 x2 = val_main_v28 (F := Ideal) x1 x2 := rfl

/-- The symmetric term of the second cloud at row `b`. -/
theorem sym2_apply (x1 x2 : (⟨S64x1024x3, .f32⟩ : BufTy).Contents (Elt Ideal)) (b : Fin 64) :
    val_main_v58 (F := Ideal) x1 x2 (ValueIdx.ix1 b) = symR (rowOf x1 b) (rowOf x2 b) := by
  rw [v58_eq_v23]
  exact sym1_apply x1 x2 b

/-- The plain term of the second cloud at row `b`. -/
theorem asym2_apply (x1 x2 : (⟨S64x1024x3, .f32⟩ : BufTy).Contents (Elt Ideal)) (b : Fin 64) :
    val_main_v63 (F := Ideal) x1 x2 (ValueIdx.ix1 b) = asym (rowOf x1 b) (rowOf x2 b) := by
  rw [v63_eq_v28]
  exact asym1_apply x1 x2 b

end Cert.ReferenceIdeal.RefRead

end
-- ==== Proof.RefTail.lean ====
/-
  The reference's last stretch is the kernel program's: from its own four per-row stages (the symmetric and the plain term
  of each cloud) and the three flag arrays it weighs, sums and averages exactly as the host lines after the kernel's region
  do. So its result is the same function `tail7` of those seven arrays, by unfolding the stages down to the four.
-/
import proofs.«117573_j17695265260051_1_alg».proof.Proof.ReadP
import proofs.«117573_j17695265260051_1_alg».proof.Proof.KITail

set_option maxRecDepth 16384

noncomputable section

namespace Cert.ReferenceIdeal.RefTail

open Idealize.ShloMosaic Idealize.ShloMosaic.TcCoe Idealize.SL.Sem
open Cert.ReferenceIdeal Cert.ReferenceIdeal.Read

variable {F : FTy → Type} [FloatOps F]

/-- The reference's result stage from its four per-row stages and the flags. -/
theorem v80_tail (x0 x1 x2 : (⟨S64x1024x3, .f32⟩ : BufTy).Contents (Elt F)) (x3 x4 x5 : (⟨S64, .f32⟩ : BufTy).Contents (Elt F)) :
    val_main_v80 (F := F) x0 x1 x2 x3 x4 x5
      = Cert.KernelIdeal.Tail.tail7 (F := F) x3 x4 x5 (val_main_v23 (F := F) x0 x2) (val_main_v28 (F := F) x0 x2)
          (val_main_v58 (F := F) x1 x2) (val_main_v63 (F := F) x1 x2) := by
  rfl

end Cert.ReferenceIdeal.RefTail

end
-- ==== Proof.Bridge.lean ====
/-
  The bridge between the two programs at the extended reals. The idealized kernel program leaves, in columns 0 to 3 of its
  region's output array, row by row, the symmetric and the plain term of the first cloud and of the second, in the KERNEL's
  spelling of the symmetric term (minima of the Gram expansions chunk by chunk, rooted afterwards); the reference's four
  per-row stages are the same terms in ITS spelling (minima of the roots, halved slot by slot). Row `b = 8t + r` of the
  array is row `r` of the block grid point `t` wrote, which the body computed from rows `8t … 8t+7` of the three arguments;
  the two spellings of the symmetric term are one extended real by `symK_eq_symR`, and the plain term is spelt one way. So
  the four columns ARE the reference's four stages, and since both programs end with the same weighing and averaging of
  them, their results are equal.
-/
import proofs.«117573_j17695265260051_1_alg».proof.Proof.KIRun
import proofs.«117573_j17695265260051_1_alg».proof.Proof.KIFinal
import proofs.«117573_j17695265260051_1_alg».proof.Proof.KIValue
import proofs.«117573_j17695265260051_1_alg».proof.Proof.SpecLaw
import proofs.«117573_j17695265260051_1_alg».proof.Proof.RefRead
import proofs.«117573_j17695265260051_1_alg».proof.Proof.RefTail

set_option maxRecDepth 16384

noncomputable section

namespace Cert.KernelIdeal.Bridge

open Idealize.ShloMosaic Idealize.ShloMosaic.TcCoe Idealize.SL.Sem
open Cert.KernelIdeal Cert.KernelIdeal.Gen Cert.KernelIdeal.Tail Cert.Chamfer
open ValueIdx

variable (m : (ℓ : Loc nD τ sig) → Buf (Elt Ideal) ℓ) (c : Dev nD)

/-- Every row of the 64 is row `r` of block `t`. -/
theorem split64 (b : Fin 64) : ∃ t r : Fin 8, b = (⟨8 * t.val + r.val, by omega⟩ : Fin 64) :=
  ⟨⟨b.val / 8, by omega⟩, ⟨b.val % 8, by omega⟩, Fin.ext (by simp only; omega)⟩

/-- The region's output array after its write-backs. -/
abbrev outArr : FVec Ideal S64x128 .f32 := (Hand.dats (F := Ideal) m 0 c).arrAt 3 cfg0.N

/-- Column 0, row by row, is the reference's symmetric term of the first cloud. -/
theorem col0_eq : col0 (F := Ideal) (outArr m c)
    = Cert.ReferenceIdeal.Read.val_main_v23 (F := Ideal) (m ((c.tc : Thread nD τ).loc main_arg0)) (m ((c.tc : Thread nD τ).loc main_arg2)) := by
  funext j
  obtain ⟨b, rfl⟩ : ∃ b : Fin 64, j = ix1 b := ⟨j 0, eq_ix1 j⟩
  obtain ⟨t, r, rfl⟩ := split64 b
  refine (Run.col0_apply _ _).trans ?_
  refine (Final.arrAt_apply m c t r 0).trans ?_
  refine (BodyValue.outVal_sym1 _ _ _ r).trans ?_
  rw [Final.rowOf8_blkOf, Final.rowOf8_blkOf, symK_eq_symR]
  exact (Cert.ReferenceIdeal.RefRead.sym1_apply _ _ _).symm

/-- Column 1 is the reference's plain term of the first cloud. -/
theorem col1_eq : col1 (F := Ideal) (outArr m c)
    = Cert.ReferenceIdeal.Read.val_main_v28 (F := Ideal) (m ((c.tc : Thread nD τ).loc main_arg0)) (m ((c.tc : Thread nD τ).loc main_arg2)) := by
  funext j
  obtain ⟨b, rfl⟩ : ∃ b : Fin 64, j = ix1 b := ⟨j 0, eq_ix1 j⟩
  obtain ⟨t, r, rfl⟩ := split64 b
  refine (Run.col1_apply _ _).trans ?_
  refine (Final.arrAt_apply m c t r 1).trans ?_
  refine (BodyValue.outVal_asym1 _ _ _ r).trans ?_
  rw [Final.rowOf8_blkOf, Final.rowOf8_blkOf]
  exact (Cert.ReferenceIdeal.RefRead.asym1_apply _ _ _).symm

/-- Column 2 is the reference's symmetric term of the second cloud. -/
theorem col2_eq : col2 (F := Ideal) (outArr m c)
    = Cert.ReferenceIdeal.Read.val_main_v58 (F := Ideal) (m ((c.tc : Thread nD τ).loc main_arg1)) (m ((c.tc : Thread nD τ).loc main_arg2)) := by
  funext j
  obtain ⟨b, rfl⟩ : ∃ b : Fin 64, j = ix1 b := ⟨j 0, eq_ix1 j⟩
  obtain ⟨t, r, rfl⟩ := split64 b
  refine (Run.col2_apply _ _).trans ?_
  refine (Final.arrAt_apply m c t r 2).trans ?_
  refine (BodyValue.outVal_sym2 _ _ _ r).trans ?_
  rw [Final.rowOf8_blkOf, Final.rowOf8_blkOf, symK_eq_symR]
  exact (Cert.ReferenceIdeal.RefRead.sym2_apply _ _ _).symm

/-- Column 3 is the reference's plain term of the second cloud. -/
theorem col3_eq : col3 (F := Ideal) (outArr m c)
    = Cert.ReferenceIdeal.Read.val_main_v63 (F := Ideal) (m ((c.tc : Thread nD τ).loc main_arg1)) (m ((c.tc : Thread nD τ).loc main_arg2)) := by
  funext j
  obtain ⟨b, rfl⟩ : ∃ b : Fin 64, j = ix1 b := ⟨j 0, eq_ix1 j⟩
  obtain ⟨t, r, rfl⟩ := split64 b
  refine (Run.col3_apply _ _).trans ?_
  refine (Final.arrAt_apply m c t r 3).trans ?_
  refine (BodyValue.outVal_asym2 _ _ _ r).trans ?_
  rw [Final.rowOf8_blkOf, Final.rowOf8_blkOf]
  exact (Cert.ReferenceIdeal.RefRead.asym2_apply _ _ _).symm

end Cert.KernelIdeal.Bridge

end
-- ==== Proof.lean ====
/-
  The certificate's five claims, assembled.

  The three frames: each kernel program's @main is one pipelined region followed by host lines; its frame is the run of
  that region under plain proof data (Proof/KFrame.lean at the word level, Proof/KIFrame.lean at the extended reals), and
  the reference's frame is its host operations' run with the result dropped. The idealization changed no operation, so
  `preserves` asks nothing. The value claim: the idealized kernel program ends with the shared weighing and averaging of
  the four columns of its region's output array, the reference with the same of its four per-row stages, and column by
  column these are equal (Proof/Bridge.lean), on arguments that agree.
-/
import proofs.«117573_j17695265260051_1_alg».proof.Defs
import proofs.«117573_j17695265260051_1_alg».proof.Proof.Gen.Kernel
import proofs.«117573_j17695265260051_1_alg».proof.Proof.Gen.KernelIdeal
import proofs.«117573_j17695265260051_1_alg».proof.Proof.Gen.ReferenceIdeal
import proofs.«117573_j17695265260051_1_alg».proof.Proof.Gen.Pre_finite_inputs
import proofs.«117573_j17695265260051_1_alg».proof.Proof.KFrame
import proofs.«117573_j17695265260051_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the three averages of the flags and the reference's four per-row stages of the arguments. -/
theorem algebraic : Cert.algebraic_KernelIdeal_ReferenceIdeal := by
  intro m ρ m' ρ' _ hagree
  refine ⟨fun c => Cert.KernelIdeal.Tail.tail7 (F := Ideal)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v58 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.ReferenceIdeal.Read.val_main_v63 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.Run.run_named (F := Ideal) m ρ)
    rw [Cert.KernelIdeal.Bridge.col0_eq m c, Cert.KernelIdeal.Bridge.col1_eq m c, Cert.KernelIdeal.Bridge.col2_eq m c,
      Cert.KernelIdeal.Bridge.col3_eq m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq, Cert.ReferenceIdeal.RefTail.v80_tail,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
